-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3x3 : Shape := ⟨3, ![131072, 3, 3]⟩
abbrev S512x128 : Shape := ⟨2, ![512, 128]⟩
abbrev S512 : Shape := ⟨1, ![512]⟩
abbrev S_ : Shape := ⟨0, ![]⟩
abbrev S512x1 : Shape := ⟨2, ![512, 1]⟩

class Facts : Prop where
  bcast_S_S512 : S_.BroadcastsInDim S512 (![] : Fin 0 → Fin S512.rank)
  bcast_S512_S512x1_0 : S512.BroadcastsInDim S512x1 (![0] : Fin 1 → Fin S512x1.rank)
  bcast_S_S131072x3x3 : S_.BroadcastsInDim S131072x3x3 (![] : Fin 0 → Fin S131072x3x3.rank)
  reducesTo_S131072x3x3_S_d0_1_2 : S131072x3x3.ReducesTo [0, 1, 2] S_
  h_S_ : 0 < S_.numel
  bcast_S512x1_S512x128_0_1 : S512x1.BroadcastsInDim S512x128 (![0, 1] : Fin 2 → Fin S512x128.rank)
  bcast_S_S512x1 : S_.BroadcastsInDim S512x1 (![] : Fin 0 → Fin S512x1.rank)
  reducesTo_S512x128_S_d0_1 : S512x128.ReducesTo [0, 1] S_

variable [Facts]

def fn_part1 {F : FTy → Type} [FloatOps F] (main_arg2 : IVec S512x128 32) (main_v12 : IVec S_ 1) (main_v14 : IVec S512x128 1) (main_v17 : IVec S512x128 32) : IVec S_ 1 :=
  let main_v18 : IVec S512x128 1 := cmpi .slt main_arg2 main_v17
  let main_v19 : IVec S512x128 1 := andi main_v14 main_v18
  let main_c_4 : IVec S_ 1 := constantI S_ 1 1#1
  let main_v20 : IVec S_ 1 := (fun x v => Host.reduce IntOp.andi x v reducesTo_S512x128_S_d0_1 h_S_) main_v19 main_c_4
  let main_v21 : IVec S_ 1 := andi main_v12 main_v20
  main_v21

def fn {F : FTy → Type} [FloatOps F] (main_arg0 : FVec F S131072x3x3 .f32) (main_arg1 : FVec F S131072x3x3 .f32) (main_arg2 : IVec S512x128 32) : IVec S_ 1 :=
  let main_v0 : IVec S512 32 := iotaInDim S512 32 0
  let main_c : IVec S_ 32 := constantI S_ 32 256#32
  let main_v1 : IVec S512 32 := broadcastInDim S512 ![] bcast_S_S512 main_c
  let main_v2 : IVec S512 32 := muli main_v0 main_v1
  let main_v3 : IVec S512x1 32 := broadcastInDim S512x1 ![0] bcast_S512_S512x1_0 main_v2
  let main_v4 : FVec F S131072x3x3 .f32 := Host.absf main_arg0
  let main_cst : FVec F S_ .f32 := constant S_ .f32 0x7F800000#32
  let main_v5 : FVec F S131072x3x3 .f32 := broadcastInDim S131072x3x3 ![] bcast_S_S131072x3x3 main_cst
  let main_v6 : IVec S131072x3x3 1 := cmpf .olt main_v4 main_v5
  let main_c_0 : IVec S_ 1 := constantI S_ 1 1#1
  let main_v7 : IVec S_ 1 := (fun x v => Host.reduce IntOp.andi x v reducesTo_S131072x3x3_S_d0_1_2 h_S_) main_v6 main_c_0
  let main_v8 : FVec F S131072x3x3 .f32 := Host.absf main_arg1
  let main_cst_1 : FVec F S_ .f32 := constant S_ .f32 0x7F800000#32
  let main_v9 : FVec F S131072x3x3 .f32 := broadcastInDim S131072x3x3 ![] bcast_S_S131072x3x3 main_cst_1
  let main_v10 : IVec S131072x3x3 1 := cmpf .olt main_v8 main_v9
  let main_c_2 : IVec S_ 1 := constantI S_ 1 1#1
  let main_v11 : IVec S_ 1 := (fun x v => Host.reduce IntOp.andi x v reducesTo_S131072x3x3_S_d0_1_2 h_S_) main_v10 main_c_2
  let main_v12 : IVec S_ 1 := andi main_v7 main_v11
  let main_v13 : IVec S512x128 32 := broadcastInDim S512x128 ![0, 1] bcast_S512x1_S512x128_0_1 main_v3
  let main_v14 : IVec S512x128 1 := cmpi .sge main_arg2 main_v13
  let main_c_3 : IVec S_ 32 := constantI S_ 32 256#32
  let main_v15 : IVec S512x1 32 := broadcastInDim S512x1 ![] bcast_S_S512x1 main_c_3
  let main_v16 : IVec S512x1 32 := addi main_v3 main_v15
  let main_v17 : IVec S512x128 32 := broadcastInDim S512x128 ![0, 1] bcast_S512x1_S512x128_0_1 main_v16
  fn_part1 (F := F) main_arg2 main_v12 main_v14 main_v17
-- ==== Kernel.lean ====
abbrev S131072x3x3 : Shape := ⟨3, ![131072, 3, 3]⟩
abbrev S512x128 : Shape := ⟨2, ![512, 128]⟩
abbrev S512x256x3x3 : Shape := ⟨4, ![512, 256, 3, 3]⟩
abbrev S512 : Shape := ⟨1, ![512]⟩
abbrev S_ : Shape := ⟨0, ![]⟩
abbrev S512x1 : Shape := ⟨2, ![512, 1]⟩
abbrev S16x128 : Shape := ⟨2, ![16, 128]⟩
abbrev S8x256x3x3 : Shape := ⟨4, ![8, 256, 3, 3]⟩
abbrev S8x128 : Shape := ⟨2, ![8, 128]⟩
abbrev S8x128x256 : Shape := ⟨3, ![8, 128, 256]⟩
abbrev S8x128x1 : Shape := ⟨3, ![8, 128, 1]⟩
abbrev S8x256x1x3 : Shape := ⟨4, ![8, 256, 1, 3]⟩
abbrev S8x256x3 : Shape := ⟨3, ![8, 256, 3]⟩
abbrev S8x128x3 : Shape := ⟨3, ![8, 128, 3]⟩
abbrev S8x128x128 : Shape := ⟨3, ![8, 128, 128]⟩
abbrev S8x1x128 : Shape := ⟨3, ![8, 1, 128]⟩
abbrev S8x1 : Shape := ⟨2, ![8, 1]⟩
abbrev S8x1x1 : Shape := ⟨3, ![8, 1, 1]⟩
abbrev S1x1 : Shape := ⟨2, ![1, 1]⟩
abbrev S1x1x1 : Shape := ⟨3, ![1, 1, 1]⟩

abbrev nBuf : Space → Nat
  | .hbm => 20
  | .vmem => 8
  | .smem => 0
  | _ => 0

abbrev bufTy : (tb : Table) → Fin (tcTables nBuf tb) → BufTy
  | .hbm, ⟨0, _⟩ => ⟨S131072x3x3, .f32⟩
  | .hbm, ⟨1, _⟩ => ⟨S131072x3x3, .f32⟩
  | .hbm, ⟨2, _⟩ => ⟨S512x128, .i32⟩
  | .hbm, ⟨3, _⟩ => ⟨S512x256x3x3, .f32⟩
  | .hbm, ⟨4, _⟩ => ⟨S512x256x3x3, .f32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x128, .i32⟩
  | .hbm, ⟨11, _⟩ => ⟨S512x128, .i32⟩
  | .hbm, ⟨12, _⟩ => ⟨S16x128, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S8x256x3x3, .f32⟩
  | .local _ .vmem, ⟨1, _⟩ => ⟨S8x256x3x3, .f32⟩
  | .local _ .vmem, ⟨2, _⟩ => ⟨S8x256x3x3, .f32⟩
  | .local _ .vmem, ⟨3, _⟩ => ⟨S8x256x3x3, .f32⟩
  | .local _ .vmem, ⟨4, _⟩ => ⟨S8x128, .i32⟩
  | .local _ .vmem, ⟨5, _⟩ => ⟨S8x128, .i32⟩
  | .local _ .vmem, ⟨6, _⟩ => ⟨S8x128, .f32⟩
  | .local _ .vmem, ⟨7, _⟩ => ⟨S8x128, .f32⟩
  | _, _ => ⟨S131072x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x3x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x3x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S131072x3x3_S512x256x3x3 : S131072x3x3.ShapeCasts S512x256x3x3
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  iota_S8x128x256_d2_w32 : S8x128x256.Iotas .tc 32 [2]
  shapeCasts_S8x128_S8x128x1 : S8x128.ShapeCasts S8x128x1
  broadcasts_S8x128x1_S8x128x256 : S8x128x1.Broadcasts S8x128x256
  natLt_1_32 : 1 < 32
  inb_S8x256x3x3_S8x256x3x3_0_0_0_0 : ∀ a, (![0, 0, 0, 0] : Fin 4 → Nat) a + S8x256x3x3.size a ≤ S8x256x3x3.size a
  h_S8x256x3x3 : 0 < S8x256x3x3.numel
  shapeCasts_S8x256x3x3_S8x256x3x3 : S8x256x3x3.ShapeCasts S8x256x3x3
  slices_S8x256x3x3_o0_0_1_0_S8x256x1x3 : S8x256x3x3.Slices ![0, 0, 1, 0] S8x256x1x3
  shapeCasts_S8x256x1x3_S8x256x3 : S8x256x1x3.ShapeCasts S8x256x3
  slices_S8x128x3_o0_0_0_S8x128x1 : S8x128x3.Slices ![0, 0, 0] S8x128x1
  shapeCasts_S8x128x1_S8x128 : S8x128x1.ShapeCasts S8x128
  shapeCasts_S8x128_S8x1x128 : S8x128.ShapeCasts S8x1x128
  broadcasts_S8x128x1_S8x128x128 : S8x128x1.Broadcasts S8x128x128
  broadcasts_S8x1x128_S8x128x128 : S8x1x128.Broadcasts S8x128x128
  slices_S8x128x3_o0_0_1_S8x128x1 : S8x128x3.Slices ![0, 0, 1] S8x128x1
  slices_S8x128x3_o0_0_2_S8x128x1 : S8x128x3.Slices ![0, 0, 2] S8x128x1
  reduces_S8x128x128_S8x128 : S8x128x128.Reduces [2] S8x128
  reduces_S8x128x1_S8x1 : S8x128x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1 : S1x1x1.ShapeCasts S1x1
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  dot_S8x128x256_S8x256x3_S8x128x3_2_1_1_2_0_0_wf : DotDims.WF S8x128x256 S8x256x3 S8x128x3 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x3x3.size a ≤ S512x256x3x3.size a
  hwx0_0 : ∀ i : grid0.Coords, EltTy.bits .f32 = 32 ∨ (Rect.block (s := S512x256x3x3) S8x256x3x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3x3.size a ≤ S512x256x3x3.size a
  hwx0_1 : ∀ i : grid0.Coords, EltTy.bits .f32 = 32 ∨ (Rect.block (s := S512x256x3x3) S8x256x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S512x128.size a
  hwx0_2 : ∀ i : grid0.Coords, EltTy.bits .i32 = 32 ∨ (Rect.block (s := S512x128) S8x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S8x128x256_S8x256x3_S8x128x3_2_1_1_2_0_0 : DotDims S8x128x256 S8x256x3 S8x128x3 where
  lhsContracting := [2]
  rhsContracting := [1]
  lhsNonContracting := [1]
  rhsNonContracting := [2]
  lhsBatch := [0]
  rhsBatch := [0]
  wf := dot_S8x128x256_S8x256x3_S8x128x3_2_1_1_2_0_0_wf

abbrev win0_0 : Pipeline.Window sig grid0 :=
  Pipeline.Window.ofSpec (Memref.whole main_v0) S8x256x3x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x3x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x3x3 : Shape := ⟨3, ![131072, 3, 3]⟩
abbrev S512x128 : Shape := ⟨2, ![512, 128]⟩
abbrev S131072x1x3 : Shape := ⟨3, ![131072, 1, 3]⟩
abbrev S131072x3 : Shape := ⟨2, ![131072, 3]⟩
abbrev S_ : Shape := ⟨0, ![]⟩
abbrev S512x128x1 : Shape := ⟨3, ![512, 128, 1]⟩
abbrev S512x128x3 : Shape := ⟨3, ![512, 128, 3]⟩
abbrev S512x1x128x3 : Shape := ⟨4, ![512, 1, 128, 3]⟩
abbrev S512x128x1x3 : Shape := ⟨4, ![512, 128, 1, 3]⟩
abbrev S512x128x128x3 : Shape := ⟨4, ![512, 128, 128, 3]⟩
abbrev S512x128x128 : Shape := ⟨3, ![512, 128, 128]⟩

abbrev nBuf : Space → Nat
  | .hbm => 77
  | .vmem => 0
  | .smem => 0
  | _ => 0

abbrev bufTy : (tb : Table) → Fin (tcTables nBuf tb) → BufTy
  | .hbm, ⟨0, _⟩ => ⟨S131072x3x3, .f32⟩
  | .hbm, ⟨1, _⟩ => ⟨S131072x3x3, .f32⟩
  | .hbm, ⟨2, _⟩ => ⟨S512x128, .i32⟩
  | .hbm, ⟨3, _⟩ => ⟨S131072x1x3, .f32⟩
  | .hbm, ⟨4, _⟩ => ⟨S131072x3, .f32⟩
  | .hbm, ⟨5, _⟩ => ⟨S131072x1x3, .f32⟩
  | .hbm, ⟨6, _⟩ => ⟨S131072x3, .f32⟩
  | .hbm, ⟨7, _⟩ => ⟨S_, .i32⟩
  | .hbm, ⟨8, _⟩ => ⟨S512x128, .i32⟩
  | .hbm, ⟨9, _⟩ => ⟨S512x128, .i1⟩
  | .hbm, ⟨10, _⟩ => ⟨S_, .i32⟩
  | .hbm, ⟨11, _⟩ => ⟨S512x128, .i32⟩
  | .hbm, ⟨12, _⟩ => ⟨S512x128, .i32⟩
  | .hbm, ⟨13, _⟩ => ⟨S512x128, .i32⟩
  | .hbm, ⟨14, _⟩ => ⟨S512x128x1, .i32⟩
  | .hbm, ⟨15, _⟩ => ⟨S512x128x3, .f32⟩
  | .hbm, ⟨16, _⟩ => ⟨S_, .i32⟩
  | .hbm, ⟨17, _⟩ => ⟨S512x128, .i32⟩
  | .hbm, ⟨18, _⟩ => ⟨S512x128, .i1⟩
  | .hbm, ⟨19, _⟩ => ⟨S_, .i32⟩
  | .hbm, ⟨20, _⟩ => ⟨S512x128, .i32⟩
  | .hbm, ⟨21, _⟩ => ⟨S512x128, .i32⟩
  | .hbm, ⟨22, _⟩ => ⟨S512x128, .i32⟩
  | .hbm, ⟨23, _⟩ => ⟨S512x128x1, .i32⟩
  | .hbm, ⟨24, _⟩ => ⟨S512x128x3, .f32⟩
  | .hbm, ⟨25, _⟩ => ⟨S512x1x128x3, .f32⟩
  | .hbm, ⟨26, _⟩ => ⟨S512x128x1x3, .f32⟩
  | .hbm, ⟨27, _⟩ => ⟨S512x128x128x3, .f32⟩
  | .hbm, ⟨28, _⟩ => ⟨S512x128x128x3, .f32⟩
  | .hbm, ⟨29, _⟩ => ⟨S512x128x128x3, .f32⟩
  | .hbm, ⟨30, _⟩ => ⟨S512x128x128x3, .f32⟩
  | .hbm, ⟨31, _⟩ => ⟨S_, .f32⟩
  | .hbm, ⟨32, _⟩ => ⟨S512x128x128, .f32⟩
  | .hbm, ⟨33, _⟩ => ⟨S_, .f32⟩
  | .hbm, ⟨34, _⟩ => ⟨S512x128x128, .f32⟩
  | .hbm, ⟨35, _⟩ => ⟨S512x128x128, .i1⟩
  | .hbm, ⟨36, _⟩ => ⟨S_, .f32⟩
  | .hbm, ⟨37, _⟩ => ⟨S_, .f32⟩
  | .hbm, ⟨38, _⟩ => ⟨S512x128x128, .f32⟩
  | .hbm, ⟨39, _⟩ => ⟨S512x128x128, .f32⟩
  | .hbm, ⟨40, _⟩ => ⟨S_, .f32⟩
  | .hbm, ⟨41, _⟩ => ⟨S512x128x128, .f32⟩
  | .hbm, ⟨42, _⟩ => ⟨S512x128x128, .i1⟩
  | .hbm, ⟨43, _⟩ => ⟨S512x128x128, .f32⟩
  | .hbm, ⟨44, _⟩ => ⟨S_, .f32⟩
  | .hbm, ⟨45, _⟩ => ⟨S_, .f32⟩
  | .hbm, ⟨46, _⟩ => ⟨S512x128x128, .f32⟩
  | .hbm, ⟨47, _⟩ => ⟨S512x128x128, .f32⟩
  | .hbm, ⟨48, _⟩ => ⟨S512x1x128x3, .f32⟩
  | .hbm, ⟨49, _⟩ => ⟨S512x128x1x3, .f32⟩
  | .hbm, ⟨50, _⟩ => ⟨S512x128x128x3, .f32⟩
  | .hbm, ⟨51, _⟩ => ⟨S512x128x128x3, .f32⟩
  | .hbm, ⟨52, _⟩ => ⟨S512x128x128x3, .f32⟩
  | .hbm, ⟨53, _⟩ => ⟨S512x128x128x3, .f32⟩
  | .hbm, ⟨54, _⟩ => ⟨S_, .f32⟩
  | .hbm, ⟨55, _⟩ => ⟨S512x128x128, .f32⟩
  | .hbm, ⟨56, _⟩ => ⟨S_, .f32⟩
  | .hbm, ⟨57, _⟩ => ⟨S512x128x128, .f32⟩
  | .hbm, ⟨58, _⟩ => ⟨S512x128x128, .i1⟩
  | .hbm, ⟨59, _⟩ => ⟨S_, .f32⟩
  | .hbm, ⟨60, _⟩ => ⟨S_, .f32⟩
  | .hbm, ⟨61, _⟩ => ⟨S512x128x128, .f32⟩
  | .hbm, ⟨62, _⟩ => ⟨S512x128x128, .f32⟩
  | .hbm, ⟨63, _⟩ => ⟨S_, .f32⟩
  | .hbm, ⟨64, _⟩ => ⟨S512x128x128, .f32⟩
  | .hbm, ⟨65, _⟩ => ⟨S512x128x128, .i1⟩
  | .hbm, ⟨66, _⟩ => ⟨S512x128x128, .f32⟩
  | .hbm, ⟨67, _⟩ => ⟨S_, .f32⟩
  | .hbm, ⟨68, _⟩ => ⟨S_, .f32⟩
  | .hbm, ⟨69, _⟩ => ⟨S512x128x128, .f32⟩
  | .hbm, ⟨70, _⟩ => ⟨S512x128x128, .f32⟩
  | .hbm, ⟨71, _⟩ => ⟨S512x128x128, .f32⟩
  | .hbm, ⟨72, _⟩ => ⟨S512x128x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S131072x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_call2_v0 : Ref sig .tc := ⟨.hbm, 60, rfl⟩
abbrev main_call2_v1 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩

abbrev nD : Nat := 1
abbrev τ : Topo := Topo.v7x

variable {F : FTy → Type} [FloatOps F]

class Facts₀ : Prop where
  slices_S131072x3x3_S131072x1x3_0_1_0 : S131072x3x3.Slices ![0, 1, 0] S131072x1x3
  shapeCasts_S131072x1x3_S131072x3 : S131072x1x3.ShapeCasts S131072x3
  bcast_S_S512x128 : S_.BroadcastsInDim S512x128 (![] : Fin 0 → Fin S512x128.rank)
  bcast_S512x128_S512x128x1_0_1 : S512x128.BroadcastsInDim S512x128x1 (![0, 1] : Fin 2 → Fin S512x128x1.rank)
  bcast_S512x128x3_S512x1x128x3_0_2_3 : S512x128x3.BroadcastsInDim S512x1x128x3 (![0, 2, 3] : Fin 3 → Fin S512x1x128x3.rank)
  bcast_S512x128x3_S512x128x1x3_0_1_3 : S512x128x3.BroadcastsInDim S512x128x1x3 (![0, 1, 3] : Fin 3 → Fin S512x128x1x3.rank)
  bcast_S512x1x128x3_S512x128x128x3_0_1_2_3 : S512x1x128x3.BroadcastsInDim S512x128x128x3 (![0, 1, 2, 3] : Fin 4 → Fin S512x128x128x3.rank)
  bcast_S512x128x1x3_S512x128x128x3_0_1_2_3 : S512x128x1x3.BroadcastsInDim S512x128x128x3 (![0, 1, 2, 3] : Fin 4 → Fin S512x128x128x3.rank)
  reducesTo_S512x128x128x3_S512x128x128_d3 : S512x128x128x3.ReducesTo [3] S512x128x128
  h_S_ : 0 < S_.numel
  bcast_S_S512x128x128 : S_.BroadcastsInDim S512x128x128 (![] : Fin 0 → Fin S512x128x128.rank)
  reducesTo_S512x128x128_S_d0_1_2 : S512x128x128.ReducesTo [0, 1, 2] S_
  gather_S131072x3_S512x128x1_S512x128x3_2_0_n_n_0_2_13_wf : GatherDims.WF S131072x3 S512x128x1 S512x128x3 [2] [0] [] [0] [] 2 ![1, 3]

variable [Facts₀]

def gather_S131072x3_S512x128x1_S512x128x3_2_0_n_n_0_2_13 : GatherDims S131072x3 S512x128x1 S512x128x3 where
  offsetDims := [2]
  collapsedSliceDims := [0]
  operandBatchingDims := []
  startIndicesBatchingDims := []
  startIndexMap := [0]
  indexVectorDim := 2
  sliceSizes := ![1, 3]
  wf := gather_S131072x3_S512x128x1_S512x128x3_2_0_n_n_0_2_13_wf

class Facts : Prop extends Facts₀ where

variable [Facts]
-- ==== Proof.Spec.lean ====
/-
  The loss that both programs compute, as one function of the argument arrays.

  The inputs hold 131072 residues, each a 3x3 frame of coordinates; row 1 of a frame is the residue's CA atom. The
  residues come in 512 contiguous groups of 256. For each group, `positions` names 128 residues, and the loss compares
  the 128 x 128 matrix of pairwise distances between the sampled atoms of `inputs` with the same matrix for
  `target`: the mean, over all groups and all pairs, of the squared difference of the two distances.
  A distance is taken "safely": the sum `q` of the three squared coordinate differences, then `sqrt q` where `q > 0`
  and `0` elsewhere (the square root is only ever applied to `q` or to `1`).
  Everything here is stated on the extended reals, with the operations the idealized programs use.
-/
import Idealize.ShloMosaic.PureOps.Ideal
import Idealize.ShloMosaic.PureOps.Ideal.Laws
import Idealize.ShloMosaic.Lib.ValueIdx

noncomputable section

namespace Cert.RgnLoss

open Idealize.ShloMosaic Idealize.ShloMosaic.ValueIdx

abbrev SIn : Shape := ⟨3, ![131072, 3, 3]⟩
abbrev SPos : Shape := ⟨2, ![512, 128]⟩
abbrev SBlk : Shape := ⟨4, ![8, 256, 3, 3]⟩
abbrev SBlkPos : Shape := ⟨2, ![8, 128]⟩
abbrev S0 : Shape := ⟨0, ![]⟩

/-- The word of `0.0` and the word of `1.0`, read at the ideal instance. -/
abbrev zeroW : EReal := Ideal.ofBits .f32 0x00000000#32
abbrev oneW : EReal := Ideal.ofBits .f32 0x3F800000#32

/-- The safe distance from a sum of squares `q`: `sqrt q` where `q > 0`, else `0`; the root's argument is `q` where
    `q > 0` and `1` elsewhere. -/
def safeDist (q : EReal) : EReal :=
  Scalar.select (Ideal.cmp .ogt q zeroW) (Ideal.sqrt (Scalar.select (Ideal.cmp .ogt q zeroW) q oneW)) zeroW

/-- The squared distance between samples `s` and `s'` of one group, accumulated one coordinate at a time from zero. -/
def sqDist (a : Fin 128 → Fin 3 → EReal) (s s' : Fin 128) : EReal :=
  zeroW + (a s 0 - a s' 0) * (a s 0 - a s' 0) + (a s 1 - a s' 1) * (a s 1 - a s' 1)
    + (a s 2 - a s' 2) * (a s 2 - a s' 2)

/-- One pair's contribution: the squared difference of the two safe distances. -/
def pairTerm (a b : Fin 128 → Fin 3 → EReal) (s s' : Fin 128) : EReal :=
  (safeDist (sqDist a s s') - safeDist (sqDist b s s')) * (safeDist (sqDist a s s') - safeDist (sqDist b s s'))

/-- One group's contribution: all its pairs. -/
def groupSum (a b : Fin 128 → Fin 3 → EReal) : EReal := ∑ s : Fin 128, ∑ s' : Fin 128, pairTerm a b s s'

/-- The sampled CA atoms of group `G`: sample `s`, coordinate `k` is row 1 of the frame of residue `positions[G, s]`. -/
def rows (X : FVec Ideal SIn .f32) (P : IVec SPos 32) (G : Fin 512) : Fin 128 → Fin 3 → EReal :=
  fun s k => X (ix3 (⟨(P (ix2 G s)).toNat % 131072, Nat.mod_lt _ (by decide)⟩ : Fin 131072) (1 : Fin 3) k)

/-- The same read inside one block of 8 groups, from group-local positions: sample `s` of the block's group `g` is
    residue `p[g, s]` of that group's 256. -/
def rowsBlk (x : FVec Ideal SBlk .f32) (p : IVec SBlkPos 32) (g : Fin 8) : Fin 128 → Fin 3 → EReal :=
  fun s k => x (ix4 g (⟨(p (ix2 g s)).toNat % 256, Nat.mod_lt _ (by decide)⟩ : Fin 256) (1 : Fin 3) k)

/-- The sum over all groups and pairs. -/
def total (X T : FVec Ideal SIn .f32) (P : IVec SPos 32) : EReal :=
  ∑ G : Fin 512, groupSum (rows X P G) (rows T P G)

/-- The loss: the total divided by the word of `2^23 = 512 * 128 * 128`. -/
def loss (X T : FVec Ideal SIn .f32) (P : IVec SPos 32) : FVec Ideal S0 .f32 :=
  Host.divf (fun _ => total X T P) (constant S0 .f32 0x4B000000#32)

end Cert.RgnLoss

end
-- ==== Proof.PreDecode.lean ====
/-
  What the precondition says, read out of its printed form: every entry of `inputs` and of `target` is a real number,
  and every position of group `G` lies in that group's own range of 256 residues, `256 G ≤ positions[G, s] < 256 G + 256`.
-/
import proofs.«417519_j83056077570643_3_alg».proof.Proof.Gen.Pre_finite_inputs
import proofs.«417519_j83056077570643_3_alg».proof.Proof.Spec
import Idealize.ShloMosaic.Lib.ReduceAll
import Idealize.ShloMosaic.Lib.StableHlo.Predicate

noncomputable section

namespace Cert.RgnLoss

open Idealize.ShloMosaic Idealize.ShloMosaic.ValueIdx

/-- A rank-0 shape has one index. -/
private instance subsingleton_scalar_idx : Subsingleton Cert.Pre_finite_inputs.S_.Idx :=
  ⟨fun _ _ => funext fun d => d.elim0⟩

/-- The word `0x7F800000` is `+∞`. -/
private theorem ofBits_inf : Ideal.ofBits .f32 0x7F800000#32 = (⊤ : EReal) := by
  simp [Ideal.ofBits, Ideal.ieee]

/-- An extended real whose absolute value `max x (-x)` is below `+∞` is a real number: at either infinity the
    maximum is `+∞`. -/
private theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    simpa [Ideal.cmp, StableHlo.Predicate.ofBool_eq_one_iff] using h
  induction x using EReal.rec with
  | bot => simp at hlt
  | coe r => exact ⟨r, rfl⟩
  | top => simp at hlt

/-- The two spellings of a rank-2 index from its coordinates agree. -/
private theorem ij_eq_ix2 {n m : Nat} (p : Fin n) (q : Fin m) : StableHlo.Predicate.ij p q = ix2 p q := by
  funext d; match d with | ⟨0, _⟩ => rfl | ⟨1, _⟩ => rfl

open Cert.Pre_finite_inputs in
/-- The lower bound `(iota(512) * 256)[:, None]` laid over the [512, 128] rectangle reads, at `(G, s)`, the word `G * 256`. -/
private theorem lo_read (h₀ : S_.BroadcastsInDim S512 (![] : Fin 0 → Fin S512.rank))
    (h₁ : S512.BroadcastsInDim S512x1 (![0] : Fin 1 → Fin S512x1.rank))
    (h₂ : S512x1.BroadcastsInDim S512x128 (![0, 1] : Fin 2 → Fin S512x128.rank)) (G : Fin 512) (s : Fin 128) :
    broadcastInDim S512x128 ![0, 1] h₂ (broadcastInDim S512x1 ![0] h₁
      (muli (iotaInDim S512 32 0) (broadcastInDim S512 ![] h₀ (constantI S_ 32 256#32)))) (ix2 G s)
      = BitVec.ofNat 32 G.val * 256#32 := by
  rw [← ij_eq_ix2]
  refine (StableHlo.Predicate.bcast_rows h₁ h₂ _ G s).trans ?_
  rfl

open Cert.Pre_finite_inputs in
/-- The upper bound `lo + 256` reads, at `(G, s)`, the word `G * 256 + 256`. -/
private theorem hi_read (h₀ : S_.BroadcastsInDim S512 (![] : Fin 0 → Fin S512.rank))
    (h₁ : S512.BroadcastsInDim S512x1 (![0] : Fin 1 → Fin S512x1.rank))
    (h₂ : S512x1.BroadcastsInDim S512x128 (![0, 1] : Fin 2 → Fin S512x128.rank))
    (h₃ : S_.BroadcastsInDim S512x1 (![] : Fin 0 → Fin S512x1.rank)) (G : Fin 512) (s : Fin 128) :
    broadcastInDim S512x128 ![0, 1] h₂ (addi (broadcastInDim S512x1 ![0] h₁
      (muli (iotaInDim S512 32 0) (broadcastInDim S512 ![] h₀ (constantI S_ 32 256#32))))
      (broadcastInDim S512x1 ![] h₃ (constantI S_ 32 256#32))) (ix2 G s)
      = BitVec.ofNat 32 G.val * 256#32 + 256#32 := by
  rw [← ij_eq_ix2]
  refine (StableHlo.Predicate.bcast_of_col h₂ _ G s).trans ?_
  exact congrArg (fun w => IntOp.addi w 256#32)
    ((StableHlo.Predicate.bcast_col1 h₁ _ G).trans (rfl : _ = BitVec.ofNat 32 G.val * 256#32))

/-- A word that is, signed, at least a small non-negative word `lo` and below `hi` lies between them unsigned: the
    signed lower bound rules out a set sign bit. -/
private theorem range_of_signed (p lo hi : BitVec 32) (n : ℕ) (hlo : lo.toNat = n) (hhi : hi.toNat = n + 256)
    (hn : n + 256 < 2 ^ 31) (hge : IntOp.cmpi .sge p lo = 1#1) (hlt : IntOp.cmpi .slt p hi = 1#1) :
    n ≤ p.toNat ∧ p.toNat < n + 256 := by
  unfold IntOp.cmpi at hge hlt
  rw [StableHlo.Predicate.ofBool_eq_one_iff] at hge hlt
  simp only [BitVec.sle, BitVec.slt, decide_eq_true_eq] at hge hlt
  have hp := p.isLt
  rw [StableHlo.Predicate.toInt_eq_toNat_of_lt (a := lo) (by omega)] at hge
  rw [StableHlo.Predicate.toInt_eq_toNat_of_lt (a := hi) (by omega)] at hlt
  rw [BitVec.toInt_eq_toNat_cond] at hge hlt
  split at hge <;> omega

theorem pre_decode [Cert.Pre_finite_inputs.Facts] (X T : FVec Ideal SIn .f32) (P : IVec SPos 32)
    (h : Cert.Pre_finite_inputs.fn (F := Ideal) X T P = fun _ => 1#1) :
    (∀ i, ∃ r : ℝ, X i = (r : EReal)) ∧ (∀ i, ∃ r : ℝ, T i = (r : EReal)) ∧
      ∀ (G : Fin 512) (s : Fin 128), 256 * G.val ≤ (P (ix2 G s)).toNat ∧ (P (ix2 G s)).toNat < 256 * G.val + 256 := by
  have h0 := congrFun h ValueIdx.ix0
  dsimp only [Cert.Pre_finite_inputs.fn, Cert.Pre_finite_inputs.fn_part1] at h0
  obtain ⟨hXT, hP⟩ := IntOp.andi_eq_one.1 h0
  obtain ⟨hX, hT⟩ := IntOp.andi_eq_one.1 hXT
  refine ⟨fun i => ?_, fun i => ?_, fun G s => ?_⟩
  · exact real_of_abs_lt_inf (X i) (Host.reduce_andi_all _ _ _ _ ix0 hX i)
  · exact real_of_abs_lt_inf (T i) (Host.reduce_andi_all _ _ _ _ ix0 hT i)
  · obtain ⟨hge, hlt⟩ := IntOp.andi_eq_one.1 (Host.reduce_andi_all _ _ _ _ ix0 hP (ix2 G s))
    have hge' : IntOp.cmpi .sge (P (ix2 G s)) (BitVec.ofNat 32 G.val * 256#32) = 1#1 := by
      rw [← lo_read _ _ _ G s]; exact hge
    have hlt' : IntOp.cmpi .slt (P (ix2 G s)) (BitVec.ofNat 32 G.val * 256#32 + 256#32) = 1#1 := by
      rw [← hi_read _ _ _ _ G s]; exact hlt
    have hG := G.isLt
    refine range_of_signed _ _ _ (256 * G.val) ?_ ?_ (by omega) hge' hlt'
    · rw [BitVec.toNat_mul, BitVec.toNat_ofNat]; simp only [BitVec.toNat_ofNat]; omega
    · rw [BitVec.toNat_add, BitVec.toNat_mul, BitVec.toNat_ofNat]; simp only [BitVec.toNat_ofNat]; omega

end Cert.RgnLoss

end
-- ==== Proof.BlockValue.lean ====
/-
  One grid point's arithmetic: what the kernel body adds to its accumulator block, as a function of the three input
  blocks it loads — the sum, over the block's 8 groups, of the group's pair terms.
-/
import proofs.«417519_j83056077570643_3_alg».proof.Proof.Gen.KernelIdeal.Skeleton
import proofs.«417519_j83056077570643_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RgnLoss

open Idealize.ShloMosaic Idealize.ShloMosaic.ValueIdx Cert.KernelIdeal Cert.KernelIdeal.Gen

/-! ### Layout operations of the block's shapes, read at coordinates -/

section Layout
variable {α : Type}

private theorem cast_gs_gs1 (v : S8x128.Idx → α) (h : S8x128.ShapeCasts S8x128x1) (g : Fin 8) (s : Fin 128) (z : Fin 1) :
    shapeCast S8x128x1 v h (ix3 g s z) = v (ix2 g s) := by
  refine shapeCast_apply v h _ (ix2 g s) ?_
  refine (Shape.rowMajor_val_two _).trans (Eq.trans ?_ (Shape.rowMajor_val_three _).symm)
  show g.val * 128 + s.val = (g.val * 128 + s.val) * 1 + z.val
  omega

private theorem cast_gs1_gs (v : S8x128x1.Idx → α) (h : S8x128x1.ShapeCasts S8x128) (g : Fin 8) (s : Fin 128) :
    shapeCast S8x128 v h (ix2 g s) = v (ix3 g s 0) := by
  refine shapeCast_apply v h _ (ix3 g s 0) ?_
  refine (Shape.rowMajor_val_three _).trans (Eq.trans ?_ (Shape.rowMajor_val_two _).symm)
  show (g.val * 128 + s.val) * 1 + 0 = g.val * 128 + s.val
  omega

private theorem cast_gs_g1s (v : S8x128.Idx → α) (h : S8x128.ShapeCasts S8x1x128) (g : Fin 8) (z : Fin 1) (s : Fin 128) :
    shapeCast S8x1x128 v h (ix3 g z s) = v (ix2 g s) := by
  refine shapeCast_apply v h _ (ix2 g s) ?_
  refine (Shape.rowMajor_val_two _).trans (Eq.trans ?_ (Shape.rowMajor_val_three _).symm)
  show g.val * 128 + s.val = (g.val * 1 + z.val) * 128 + s.val
  omega

private theorem bcast_gs1_gsl {n : Nat} (v : S8x128x1.Idx → α) (h : S8x128x1.Broadcasts ⟨3, ![8, 128, n]⟩) (g : Fin 8) (s : Fin 128)
    (l : Fin n) : broadcastTo ⟨3, ![8, 128, n]⟩ v h (ix3 g s l) = v (ix3 g s 0) := by
  refine broadcastTo_apply v h _ (ix3 g s 0) ?_
  intro a
  match a with
  | ⟨0, _⟩ => rfl
  | ⟨1, _⟩ => rfl
  | ⟨2, _⟩ => rfl

private theorem bcast_g1s_gss (v : S8x1x128.Idx → α) (h : S8x1x128.Broadcasts S8x128x128) (g : Fin 8) (s s' : Fin 128) :
    broadcastTo S8x128x128 v h (ix3 g s s') = v (ix3 g 0 s') := by
  refine broadcastTo_apply v h _ (ix3 g 0 s') ?_
  intro a
  match a with
  | ⟨0, _⟩ => rfl
  | ⟨1, _⟩ => rfl
  | ⟨2, _⟩ => rfl

end Layout

/-! ### The one-hot selector -/

private theorem word_onehot (a c : BitVec 32) :
    FloatOps.sitofp (F := Ideal) .f32 ((IntOp.cmpi .eq a c).setWidth 32) = if a = c then (1 : EReal) else 0 := by
  show (((((IntOp.cmpi .eq a c).setWidth 32).toInt : ℤ) : ℝ) : EReal) = _
  by_cases h : a = c
  · subst h
    simp [IntOp.cmpi]
  · have hb : (a == c) = false := by simpa using h
    simp [IntOp.cmpi, h, hb]

/-- The selector at (g, s, l) is `1` exactly where `l` is the position sample `s` of group `g` names. -/
private theorem onehot_apply (x2 : Vec Ideal S8x128 .i32) (g : Fin 8) (s : Fin 128) (l : Fin 256) :
    k0_pay3 (F := Ideal) x2 (ix3 g s l) = if BitVec.ofNat 32 l.val = x2 (ix2 g s) then (1 : EReal) else 0 := by
  unfold k0_pay3
  refine (sitofp_apply _ _).trans ?_
  refine Eq.trans ?_ (word_onehot _ _)
  refine congrArg (fun b : BitVec 1 => FloatOps.sitofp (F := Ideal) .f32 (b.setWidth 32)) ?_
  show IntOp.cmpi .eq _ _ = IntOp.cmpi .eq _ _
  congr 1
  · exact iota_single_apply _ _ _ _ _ _
  · refine (bcast_gs1_gsl _ _ g s l).trans ?_
    refine (cast_gs_gs1 _ _ g s 0).trans ?_
    rw [shapeCast_self]

/-! ### The contraction with the one-hot selector reads one row -/

private theorem lhs_0 (j : S8x128x3.Idx) (k : dot_S8x128x256_S8x256x3_S8x128x3_2_1_1_2_0_0.contr.Idx) :
    (dot_S8x128x256_S8x256x3_S8x128x3_2_1_1_2_0_0.lhsIdx j k 0 : ℕ) = j 0 := by
  simp [DotDims.lhsIdx, dot_S8x128x256_S8x256x3_S8x128x3_2_1_1_2_0_0]; rfl
private theorem lhs_1 (j : S8x128x3.Idx) (k : dot_S8x128x256_S8x256x3_S8x128x3_2_1_1_2_0_0.contr.Idx) :
    (dot_S8x128x256_S8x256x3_S8x128x3_2_1_1_2_0_0.lhsIdx j k 1 : ℕ) = j 1 := by
  simp [DotDims.lhsIdx, dot_S8x128x256_S8x256x3_S8x128x3_2_1_1_2_0_0]; rfl
private theorem lhs_2 (j : S8x128x3.Idx) (k : dot_S8x128x256_S8x256x3_S8x128x3_2_1_1_2_0_0.contr.Idx) :
    (dot_S8x128x256_S8x256x3_S8x128x3_2_1_1_2_0_0.lhsIdx j k 2 : ℕ) = k ⟨0, by decide⟩ := by
  simp [DotDims.lhsIdx, dot_S8x128x256_S8x256x3_S8x128x3_2_1_1_2_0_0]; rfl
private theorem rhs_0 (j : S8x128x3.Idx) (k : dot_S8x128x256_S8x256x3_S8x128x3_2_1_1_2_0_0.contr.Idx) :
    (dot_S8x128x256_S8x256x3_S8x128x3_2_1_1_2_0_0.rhsIdx j k 0 : ℕ) = j 0 := by
  simp [DotDims.rhsIdx, dot_S8x128x256_S8x256x3_S8x128x3_2_1_1_2_0_0]; rfl
private theorem rhs_1 (j : S8x128x3.Idx) (k : dot_S8x128x256_S8x256x3_S8x128x3_2_1_1_2_0_0.contr.Idx) :
    (dot_S8x128x256_S8x256x3_S8x128x3_2_1_1_2_0_0.rhsIdx j k 1 : ℕ) = k ⟨0, by decide⟩ := by
  simp [DotDims.rhsIdx, dot_S8x128x256_S8x256x3_S8x128x3_2_1_1_2_0_0]; rfl
private theorem rhs_2 (j : S8x128x3.Idx) (k : dot_S8x128x256_S8x256x3_S8x128x3_2_1_1_2_0_0.contr.Idx) :
    (dot_S8x128x256_S8x256x3_S8x128x3_2_1_1_2_0_0.rhsIdx j k 2 : ℕ) = j 2 := by
  simp [DotDims.rhsIdx, dot_S8x128x256_S8x256x3_S8x128x3_2_1_1_2_0_0]; rfl

/-- A lane number below 256 is a position word below 256 exactly when it is that word's value. -/
private theorem word_eq_iff (x : BitVec 32) (hx : x.toNat < 256) (l : Fin 256) :
    BitVec.ofNat 32 l.val = x ↔ l = (⟨x.toNat % 256, Nat.mod_lt _ (by decide)⟩ : Fin 256) := by
  constructor
  · intro h
    apply Fin.ext
    show l.val = x.toNat % 256
    rw [← h, BitVec.toNat_ofNat]
    have := l.isLt
    omega
  · intro h
    rw [h]
    apply BitVec.eq_of_toNat_eq
    rw [BitVec.toNat_ofNat]
    show x.toNat % 256 % 2 ^ 32 = x.toNat
    omega

/-- Contracting the selector with a [8, 256, 3] operand over its 256 rows leaves the one row the position names:
    every other product is `0 * x = 0` on the extended reals, whatever `x` is. -/
private theorem gather_core (x2 : Vec Ideal S8x128 .i32) (v : FVec Ideal S8x256x3 .f32) (h2 : ∀ i, (x2 i).toNat < 256)
    (g : Fin 8) (s : Fin 128) (k : Fin 3) :
    matmul dot_S8x128x256_S8x256x3_S8x128x3_2_1_1_2_0_0 (some .fp32) (k0_pay3 (F := Ideal) x2) v
        (constant (F := Ideal) S8x128x3 .f32 0x00000000#32) (ix3 g s k)
      = v (ix3 g (⟨(x2 (ix2 g s)).toNat % 256, Nat.mod_lt _ (by decide)⟩ : Fin 256) k) := by
  refine (Ideal.matmul_constant_zero_apply dot_S8x128x256_S8x256x3_S8x128x3_2_1_1_2_0_0 _ _ _ _).trans ?_
  rw [← Equiv.sum_comp (contrEquiv1 dot_S8x128x256_S8x256x3_S8x128x3_2_1_1_2_0_0 256 rfl rfl).symm]
  have hL : ∀ l : Fin 256, dot_S8x128x256_S8x256x3_S8x128x3_2_1_1_2_0_0.lhsIdx (ix3 g s k)
      ((contrEquiv1 dot_S8x128x256_S8x256x3_S8x128x3_2_1_1_2_0_0 256 rfl rfl).symm l) = ix3 g s l := by
    intro l
    funext a
    apply Fin.ext
    match a with
    | ⟨0, _⟩ => exact lhs_0 _ _
    | ⟨1, _⟩ => exact lhs_1 _ _
    | ⟨2, _⟩ => exact (lhs_2 _ _).trans (contrEquiv1_symm_val _ 256 rfl rfl l)
  have hR : ∀ l : Fin 256, dot_S8x128x256_S8x256x3_S8x128x3_2_1_1_2_0_0.rhsIdx (ix3 g s k)
      ((contrEquiv1 dot_S8x128x256_S8x256x3_S8x128x3_2_1_1_2_0_0 256 rfl rfl).symm l) = ix3 g l k := by
    intro l
    funext a
    apply Fin.ext
    match a with
    | ⟨0, _⟩ => exact rhs_0 _ _
    | ⟨1, _⟩ => exact (rhs_1 _ _).trans (contrEquiv1_symm_val _ 256 rfl rfl l)
    | ⟨2, _⟩ => exact rhs_2 _ _
  refine (Finset.sum_congr rfl fun l _ => by rw [hL l, hR l, onehot_apply]).trans ?_
  rw [Finset.sum_eq_single (⟨(x2 (ix2 g s)).toNat % 256, Nat.mod_lt _ (by decide)⟩ : Fin 256)]
  · rw [if_pos ((word_eq_iff _ (h2 _) _).mpr rfl), one_mul]
  · intro b _ hb
    rw [if_neg (fun h => hb ((word_eq_iff _ (h2 _) _).mp h)), zero_mul]
  · intro h
    exact absurd (Finset.mem_univ _) h

/-- Row 1 of every frame of a coordinate block, as the [8, 256, 3] operand of the contraction. -/
private theorem ca_rows_apply (x : FVec Ideal S8x256x3x3 .f32) (h0 : S8x256x3x3.ShapeCasts S8x256x3x3)
    (hs : S8x256x3x3.Slices ![0, 0, 1, 0] S8x256x1x3) (hc : S8x256x1x3.ShapeCasts S8x256x3)
    (g : Fin 8) (l : Fin 256) (k : Fin 3) :
    shapeCast S8x256x3 (extractStridedSlice S8x256x1x3 ![0, 0, 1, 0] (shapeCast S8x256x3x3 x h0) hs) hc (ix3 g l k)
      = x (ix4 g l 1 k) := by
  refine (shapeCast_apply _ hc _ (ix4 g l 0 k) ?_).trans ?_
  · refine (Shape.rowMajor_val_four _).trans (Eq.trans ?_ (Shape.rowMajor_val_three _).symm)
    show ((g.val * 256 + l.val) * 1 + 0) * 3 + k.val = (g.val * 256 + l.val) * 3 + k.val
    omega
  · refine (extractStridedSlice_apply _ _ hs _ (ix4 g l 1 k) ?_).trans ?_
    · intro a
      match a with
      | ⟨0, _⟩ => exact (Nat.zero_add _).symm
      | ⟨1, _⟩ => exact (Nat.zero_add _).symm
      | ⟨2, _⟩ => rfl
      | ⟨3, _⟩ => exact (Nat.zero_add _).symm
    · rw [shapeCast_self]

private theorem gathered_apply (x2 : Vec Ideal S8x128 .i32) (x0 : Vec Ideal S8x256x3x3 .f32) (h2 : ∀ i, (x2 i).toNat < 256)
    (g : Fin 8) (s : Fin 128) (k : Fin 3) :
    k0_pay4 (F := Ideal) x2 x0 (ix3 g s k) = rowsBlk x0 x2 g s k := by
  unfold k0_pay4
  refine (gather_core x2 _ h2 g s k).trans ?_
  exact ca_rows_apply x0 _ _ _ g _ k

private theorem gathered_apply' (x2 : Vec Ideal S8x128 .i32) (x1 : Vec Ideal S8x256x3x3 .f32) (h2 : ∀ i, (x2 i).toNat < 256)
    (g : Fin 8) (s : Fin 128) (k : Fin 3) :
    k0_pay5 (F := Ideal) x2 x1 (ix3 g s k) = rowsBlk x1 x2 g s k := by
  unfold k0_pay5
  refine (gather_core x2 _ h2 g s k).trans ?_
  exact ca_rows_apply x1 _ _ _ g _ k

/-! ### Pairwise squared distances -/

private theorem col_apply (v : FVec Ideal S8x128x3 .f32) (off : Fin 3 → Nat) (c : Fin 3) (h0 : off 0 = 0) (h1 : off 1 = 0)
    (h2 : off 2 = c.val) (hs : S8x128x3.Slices off S8x128x1) (hc : S8x128x1.ShapeCasts S8x128) (g : Fin 8) (s : Fin 128) :
    shapeCast S8x128 (extractStridedSlice S8x128x1 off v hs) hc (ix2 g s) = v (ix3 g s c) := by
  refine (cast_gs1_gs _ hc g s).trans ?_
  refine extractStridedSlice_apply off v hs _ (ix3 g s c) ?_
  intro a
  match a with
  | ⟨0, _⟩ => show g.val = off 0 + g.val; omega
  | ⟨1, _⟩ => show s.val = off 1 + s.val; omega
  | ⟨2, _⟩ => show c.val = off 2 + 0; omega

private theorem col0_apply (v : FVec Ideal S8x128x3 .f32) (hs : S8x128x3.Slices ![0, 0, 0] S8x128x1) (hc : S8x128x1.ShapeCasts S8x128)
    (g : Fin 8) (s : Fin 128) :
    shapeCast S8x128 (extractStridedSlice S8x128x1 ![0, 0, 0] v hs) hc (ix2 g s) = v (ix3 g s 0) :=
  col_apply v ![0, 0, 0] 0 rfl rfl rfl hs hc g s
private theorem col1_apply (v : FVec Ideal S8x128x3 .f32) (hs : S8x128x3.Slices ![0, 0, 1] S8x128x1) (hc : S8x128x1.ShapeCasts S8x128)
    (g : Fin 8) (s : Fin 128) :
    shapeCast S8x128 (extractStridedSlice S8x128x1 ![0, 0, 1] v hs) hc (ix2 g s) = v (ix3 g s 1) :=
  col_apply v ![0, 0, 1] 1 rfl rfl rfl hs hc g s
private theorem col2_apply (v : FVec Ideal S8x128x3 .f32) (hs : S8x128x3.Slices ![0, 0, 2] S8x128x1) (hc : S8x128x1.ShapeCasts S8x128)
    (g : Fin 8) (s : Fin 128) :
    shapeCast S8x128 (extractStridedSlice S8x128x1 ![0, 0, 2] v hs) hc (ix2 g s) = v (ix3 g s 2) :=
  col_apply v ![0, 0, 2] 2 rfl rfl rfl hs hc g s

/-- The difference of a per-sample column with itself, spread over the pair axes. -/
private theorem diff_apply (u : FVec Ideal S8x128 .f32) (hc1 : S8x128.ShapeCasts S8x128x1) (hc2 : S8x128.ShapeCasts S8x1x128)
    (hb1 : S8x128x1.Broadcasts S8x128x128) (hb2 : S8x1x128.Broadcasts S8x128x128) (g : Fin 8) (s s' : Fin 128) :
    subf (broadcastTo S8x128x128 (shapeCast S8x128x1 u hc1) hb1) (broadcastTo S8x128x128 (shapeCast S8x1x128 u hc2) hb2)
        (ix3 g s s') = u (ix2 g s) - u (ix2 g s') := by
  refine (subf_apply _ _ _).trans ?_
  congr 1
  · exact (bcast_gs1_gsl _ hb1 g s s').trans (cast_gs_gs1 u hc1 g s 0)
  · exact (bcast_g1s_gss _ hb2 g s s').trans (cast_gs_g1s u hc2 g 0 s')

/-- The three squared coordinate differences, added one at a time to zero, are the squared distance. -/
private theorem sq_apply (v : FVec Ideal S8x128x3 .f32) (g : Fin 8) (s s' : Fin 128) :
    k0_pay9 (F := Ideal) v (ix3 g s s') = sqDist (fun s k => v (ix3 g s k)) s s' := by
  unfold k0_pay9
  simp only [addf_apply, mulf_apply, broadcast_apply, diff_apply, col0_apply, col1_apply, col2_apply]
  rfl

private theorem sqrt_at {s : Shape} (x : FVec Ideal s .f32) (i : s.Idx) : Idealize.ShloMosaic.sqrt x i = Ideal.sqrt (x i) := rfl

/-- The guarded square root of the second block's squared distances. -/
private theorem safe_apply' (v : FVec Ideal S8x128x3 .f32) (g : Fin 8) (s s' : Fin 128) :
    select (k0_pay10 (F := Ideal) v) (k0_pay11 (F := Ideal) v) (broadcast S8x128x128 (Scalar.ofBits (F := Ideal) .f32 0x00000000#32))
        (ix3 g s s') = safeDist (sqDist (fun s k => v (ix3 g s k)) s s') := by
  unfold k0_pay10 k0_pay11
  simp only [select_apply, cmpf_apply, broadcast_apply, sqrt_at, sq_apply]
  rfl

/-- The guarded square root of the first block's squared distances, whose last coordinate is still to be added. -/
private theorem safe_apply (v39 : FVec Ideal S8x128x128 .f32) (v41 : FVec Ideal S8x128 .f32) (g : Fin 8) (s s' : Fin 128) :
    k0_pay8 (F := Ideal) v39 v41 (ix3 g s s')
      = safeDist (v39 (ix3 g s s') + (v41 (ix2 g s) - v41 (ix2 g s')) * (v41 (ix2 g s) - v41 (ix2 g s'))) := by
  unfold k0_pay8
  simp only [select_apply, cmpf_apply, broadcast_apply, sqrt_at, addf_apply, mulf_apply, diff_apply]
  rfl

/-- The first two coordinates' part of the first block's squared distance. -/
private theorem sq01_apply (x2 : Vec Ideal S8x128 .i32) (x0 : Vec Ideal S8x256x3x3 .f32) (g : Fin 8) (s s' : Fin 128) :
    k0_pay6 (F := Ideal) x2 x0 (ix3 g s s')
      = zeroW + (k0_pay4 (F := Ideal) x2 x0 (ix3 g s 0) - k0_pay4 (F := Ideal) x2 x0 (ix3 g s' 0))
            * (k0_pay4 (F := Ideal) x2 x0 (ix3 g s 0) - k0_pay4 (F := Ideal) x2 x0 (ix3 g s' 0))
          + (k0_pay4 (F := Ideal) x2 x0 (ix3 g s 1) - k0_pay4 (F := Ideal) x2 x0 (ix3 g s' 1))
            * (k0_pay4 (F := Ideal) x2 x0 (ix3 g s 1) - k0_pay4 (F := Ideal) x2 x0 (ix3 g s' 1)) := by
  unfold k0_pay6
  simp only [addf_apply, mulf_apply, broadcast_apply, diff_apply, col0_apply, col1_apply]
  rfl

private theorem col_last_apply (x2 : Vec Ideal S8x128 .i32) (x0 : Vec Ideal S8x256x3x3 .f32) (g : Fin 8) (s : Fin 128) :
    k0_pay7 (F := Ideal) x2 x0 (ix2 g s) = k0_pay4 (F := Ideal) x2 x0 (ix3 g s 2) := by
  unfold k0_pay7
  exact col2_apply _ _ _ g s

/-- The first block's safe distances. -/
private theorem dist0_apply (x2 : Vec Ideal S8x128 .i32) (x0 : Vec Ideal S8x256x3x3 .f32) (h2 : ∀ i, (x2 i).toNat < 256)
    (g : Fin 8) (s s' : Fin 128) :
    k0_pay8 (F := Ideal) (k0_pay6 x2 x0) (k0_pay7 x2 x0) (ix3 g s s') = safeDist (sqDist (rowsBlk x0 x2 g) s s') := by
  rw [safe_apply, sq01_apply, col_last_apply, col_last_apply]
  simp only [gathered_apply x2 x0 h2]
  rfl

/-- The second block's safe distances. -/
private theorem dist1_apply (x2 : Vec Ideal S8x128 .i32) (x1 : Vec Ideal S8x256x3x3 .f32) (h2 : ∀ i, (x2 i).toNat < 256)
    (g : Fin 8) (s s' : Fin 128) :
    select (k0_pay10 (F := Ideal) (k0_pay5 x2 x1)) (k0_pay11 (F := Ideal) (k0_pay5 x2 x1))
        (broadcast S8x128x128 (Scalar.ofBits (F := Ideal) .f32 0x00000000#32)) (ix3 g s s')
      = safeDist (sqDist (rowsBlk x1 x2 g) s s') := by
  rw [safe_apply']
  simp only [gathered_apply' x2 x1 h2]

/-! ### The three lane sums and the spread of the total -/

section Layout2
variable {α : Type}

private theorem cast_g1_g11 (v : S8x1.Idx → α) (h : S8x1.ShapeCasts S8x1x1) (g : Fin 8) (z z' : Fin 1) :
    shapeCast S8x1x1 v h (ix3 g z z') = v (ix2 g 0) := by
  refine shapeCast_apply v h _ (ix2 g 0) ?_
  refine (Shape.rowMajor_val_two _).trans (Eq.trans ?_ (Shape.rowMajor_val_three _).symm)
  show g.val * 1 + 0 = (g.val * 1 + z.val) * 1 + z'.val
  have := z.isLt
  have := z'.isLt
  omega

private theorem bcast_11_gs (v : S1x1.Idx → α) (h : S1x1.Broadcasts S8x128) (y : S8x128.Idx) :
    broadcastTo S8x128 v h y = v (ix2 0 0) := by
  refine broadcastTo_apply v h _ (ix2 0 0) ?_
  intro a
  match a with
  | ⟨0, _⟩ => rfl
  | ⟨1, _⟩ => rfl

end Layout2

/-- The sum over the last axis of a [8, 128, 128] vector. -/
private theorem red2_apply (w : FVec Ideal S8x128x128 .f32) (h : S8x128x128.Reduces [2] S8x128) (hφ : FKind.Formats .f32)
    (hacc : (0x00000000#32 : BitVec 32) = FKind.add.neutral .f32 hφ) (g : Fin 8) (s : Fin 128) :
    multiReduction .add [2] S8x128 w 0x00000000#32 h hφ hacc (ix2 g s) = ∑ s' : Fin 128, w (ix3 g s s') := by
  refine (Ideal.multiReduction_add_single w _ h hφ hacc (ix2 g s)).trans ?_
  refine Finset.sum_congr rfl fun s' _ => congrArg w ?_
  funext a
  apply Fin.ext
  match a with
  | ⟨0, _⟩ => rfl
  | ⟨1, _⟩ => rfl
  | ⟨2, _⟩ => rfl

/-- The sum over the middle axis of a [8, 128, 1] vector. -/
private theorem red1_apply (w : FVec Ideal S8x128x1 .f32) (h : S8x128x1.Reduces [1] S8x1) (hφ : FKind.Formats .f32)
    (hacc : (0x00000000#32 : BitVec 32) = FKind.add.neutral .f32 hφ) (g : Fin 8) (z : Fin 1) :
    multiReduction .add [1] S8x1 w 0x00000000#32 h hφ hacc (ix2 g z) = ∑ s : Fin 128, w (ix3 g s z) := by
  refine (Ideal.multiReduction_add_single w _ h hφ hacc (ix2 g z)).trans ?_
  refine Finset.sum_congr rfl fun s _ => congrArg w ?_
  funext a
  apply Fin.ext
  match a with
  | ⟨0, _⟩ => rfl
  | ⟨1, _⟩ => rfl
  | ⟨2, _⟩ => rfl

/-- The sum over the first axis of a [8, 1, 1] vector. -/
private theorem red0_apply (w : FVec Ideal S8x1x1 .f32) (h : S8x1x1.Reduces [0] S1x1) (hφ : FKind.Formats .f32)
    (hacc : (0x00000000#32 : BitVec 32) = FKind.add.neutral .f32 hφ) (z z' : Fin 1) :
    multiReduction .add [0] S1x1 w 0x00000000#32 h hφ hacc (ix2 z z') = ∑ g : Fin 8, w (ix3 g z z') := by
  refine (Ideal.multiReduction_add_single w _ h hφ hacc (ix2 z z')).trans ?_
  refine Finset.sum_congr rfl fun g _ => congrArg w ?_
  funext a
  apply Fin.ext
  match a with
  | ⟨0, _⟩ => rfl
  | ⟨1, _⟩ => rfl
  | ⟨2, _⟩ => rfl

/-! ### The block's payload -/

theorem block_payload (x0 x1 : Vec Ideal S8x256x3x3 .f32) (x2 : Vec Ideal S8x128 .i32) (acc : Vec Ideal S8x128 .f32)
    (h2 : ∀ i, (x2 i).toNat < 256) :
    k0_pay1 (F := Ideal) (k0_pay8 (k0_pay6 x2 x0) (k0_pay7 x2 x0)) (k0_pay10 (k0_pay5 x2 x1)) (k0_pay11 (k0_pay5 x2 x1))
        (Scalar.ofBits .f32 0x00000000#32) acc
      = fun y => acc y + ∑ g : Fin 8, groupSum (rowsBlk x0 x2 g) (rowsBlk x1 x2 g) := by
  funext y
  unfold k0_pay1
  refine (addf_apply _ _ y).trans ?_
  congr 1
  · rw [shapeCast_self]
  · refine (bcast_11_gs _ _ y).trans ?_
    rw [shapeCast_self, shapeCast_shapeCast]
    refine (red0_apply _ _ _ _ 0 0).trans ?_
    refine Finset.sum_congr rfl fun g _ => ?_
    refine (cast_g1_g11 _ _ g 0 0).trans ?_
    refine (red1_apply _ _ _ _ g 0).trans ?_
    unfold groupSum
    refine Finset.sum_congr rfl fun s _ => ?_
    refine (cast_gs_gs1 _ _ g s 0).trans ?_
    refine (red2_apply _ _ _ _ g s).trans ?_
    refine Finset.sum_congr rfl fun s' _ => ?_
    refine (mulf_apply _ _ _).trans ?_
    unfold pairTerm
    rw [subf_apply, dist0_apply x2 x0 h2, dist1_apply x2 x1 h2]

end Cert.RgnLoss

end
-- ==== Proof.Sums.lean ====
/-
  Two facts about finite sums on the extended reals, used to join the kernel's order of summation to the reference's.
  The kernel adds one block's sum per grid point into an accumulator that restarts from zero at every point that is a
  multiple of 32: after 32 points the accumulator holds the sum of those 32 block sums. And the 512 groups are the
  2 x 32 blocks of 8 consecutive groups.
-/
import proofs.«417519_j83056077570643_3_alg».proof.Proof.Spec
import Mathlib.Algebra.BigOperators.Fin

noncomputable section

namespace Cert.RgnLoss

open Idealize.ShloMosaic

/-- The accumulator after point `n`, over a sequence `B` of block sums: restarted from zero at the multiples of 32. -/
def accumOf (B : ℕ → EReal) : ℕ → EReal
  | 0 => zeroW + B 0
  | n + 1 => if (n + 1) % 32 = 0 then zeroW + B (n + 1) else accumOf B n + B (n + 1)

/-- The word of `0.0` is the zero of the extended reals. -/
private theorem zeroW_eq : zeroW = 0 := Ideal.ofBits_zero_f32

/-- At a multiple of 32 the accumulator restarts: it holds that point's block sum alone. -/
private theorem accumOf_restart (B : ℕ → EReal) (m : ℕ) (hm : m % 32 = 0) : accumOf B m = B m := by
  cases m with
  | zero => rw [accumOf, zeroW_eq, zero_add]
  | succ k => rw [accumOf, if_pos hm, zeroW_eq, zero_add]

/-- Away from the multiples of 32 the accumulator adds the point's block sum to what it held. -/
private theorem accumOf_step (B : ℕ → EReal) (m : ℕ) (hm : (m + 1) % 32 ≠ 0) :
    accumOf B (m + 1) = accumOf B m + B (m + 1) := by
  rw [accumOf, if_neg hm]

/-- Inside the `h`-th run of 32 points, after `n + 1` of them the accumulator holds the sum of their block sums. -/
private theorem accumOf_block (B : ℕ → EReal) (h : ℕ) :
    ∀ n, n < 32 → accumOf B (32 * h + n) = ∑ j ∈ Finset.range (n + 1), B (32 * h + j) := by
  intro n
  induction n with
  | zero =>
    intro _
    rw [Finset.sum_range_one]
    exact accumOf_restart B (32 * h + 0) (by omega)
  | succ k ih =>
    intro hk
    rw [Finset.sum_range_succ, ← ih (by omega)]
    exact accumOf_step B (32 * h + k) (by omega)

/-- A sum over `m * n` consecutive naturals, cut into `m` consecutive runs of `n`. -/
private theorem sum_range_blocks (f : ℕ → EReal) (n : ℕ) :
    ∀ m, ∑ i ∈ Finset.range (m * n), f i = ∑ j ∈ Finset.range m, ∑ g ∈ Finset.range n, f (n * j + g) := by
  intro m
  induction m with
  | zero => rw [Nat.zero_mul, Finset.range_zero, Finset.sum_empty, Finset.sum_empty]
  | succ m ih =>
    rw [Nat.succ_mul, Finset.sum_range_add, Finset.sum_range_succ, ih, Nat.mul_comm m n]

/-- The same, with both runs indexed by `Fin`, and the whole range moved by `c`. -/
private theorem sum_range_blocks_fin (f : ℕ → EReal) (c : ℕ) :
    ∑ x ∈ Finset.range 256, f (c + x) = ∑ j : Fin 32, ∑ g : Fin 8, f (c + (8 * j.val + g.val)) := by
  have h := sum_range_blocks (fun x => f (c + x)) 8 32
  refine h.trans ?_
  refine (Finset.sum_range (fun j => ∑ g ∈ Finset.range 8, f (c + (8 * j + g)))).trans ?_
  exact Finset.sum_congr rfl (fun j _ => Finset.sum_range (fun g => f (c + (8 * j.val + g))))

theorem accumOf_31 (B : ℕ → EReal) : accumOf B 31 = ∑ j : Fin 32, B j.val := by
  have h := accumOf_block B 0 31 (by omega)
  simp only [Nat.mul_zero, Nat.zero_add] at h
  exact h.trans (Finset.sum_range (fun j => B j))

theorem accumOf_63 (B : ℕ → EReal) : accumOf B 63 = ∑ j : Fin 32, B (32 + j.val) := by
  have h := accumOf_block B 1 31 (by omega)
  simp only [Nat.mul_one] at h
  exact h.trans (Finset.sum_range (fun j => B (32 + j)))

theorem sum_groups (f : ℕ → EReal) :
    ∑ G : Fin 512, f G.val
      = (∑ j : Fin 32, ∑ g : Fin 8, f (8 * j.val + g.val)) + ∑ j : Fin 32, ∑ g : Fin 8, f (8 * (32 + j.val) + g.val) := by
  have h1 : ∑ G : Fin 512, f G.val = ∑ i ∈ Finset.range (256 + 256), f i :=
    (Finset.sum_range (fun i => f i)).symm
  rw [h1, Finset.sum_range_add]
  have h2 : ∑ x ∈ Finset.range 256, f x = ∑ j : Fin 32, ∑ g : Fin 8, f (8 * j.val + g.val) := by
    have h := sum_range_blocks_fin f 0
    simp only [Nat.zero_add] at h
    exact h
  have h3 : ∑ x ∈ Finset.range 256, f (256 + x)
      = ∑ j : Fin 32, ∑ g : Fin 8, f (8 * (32 + j.val) + g.val) := by
    refine (sum_range_blocks_fin f 256).trans ?_
    refine Finset.sum_congr rfl (fun j _ => Finset.sum_congr rfl (fun g _ => ?_))
    congr 1
    omega
  rw [h2, h3]

end Cert.RgnLoss

end
-- ==== Proof.KernelValue.lean ====
/-
  What the kernel program computes, read off its run.

  The grid has 64 points, `t = 32 h + j` for the two halves `h` and 32 steps `j`. Point `t` loads block `t` (groups
  `8 t … 8 t + 7`) of the two coordinate arrays and of the group-local positions, and adds the block's sum of pair terms
  into an [8, 128] accumulator block whose every entry holds the same number. The accumulator is reset to zero at the
  first step of a half (`t = 0, 32`) and written back after the last (`t = 31, 63`), into rows `8 h … 8 h + 7` of the
  [16, 128] result array. After the grid the host reads entries `(0, 0)` and `(8, 0)`, adds them and divides by `2^23`.

  So: each case of the body leaves `acc + (the block's sum)` (`out_A`, `out_B`, `step_eq`); by induction over the points
  the accumulator after point `n` is the fold `accumOf` of the block sums (`outsAt_eq`); the two write-backs cover the
  result array (`final`); the host tail reads the two halves (`tail_eq`, `run`). A block read through its window is a
  block of the reshaped argument, and a group-local position inside `[0, 256)` names the same residue as the position
  itself (`rows_x`, `rows_t`), so a block's sum is the sum of its 8 groups' sums (`bsum_eq`) and the two halves add up
  to the sum over all 512 groups (`halves_eq`): the result is the loss (`kres_eq`).
-/
import proofs.«417519_j83056077570643_3_alg».proof.Defs
import proofs.«417519_j83056077570643_3_alg».proof.Proof.Gen.KernelIdeal.Frame
import proofs.«417519_j83056077570643_3_alg».proof.Proof.Spec
import proofs.«417519_j83056077570643_3_alg».proof.Proof.BlockValue
import proofs.«417519_j83056077570643_3_alg».proof.Proof.Sums
import Idealize.ShloMosaic.Lib.Pipeline.Value
import Idealize.ShloMosaic.Lib.StableHlo.Run
import Idealize.ShloMosaic.Lib.Tactic
import Idealize.ShloMosaic.Lib.StableHlo.Predicate

noncomputable section

open Idealize.ShloMosaic Idealize.ShloMosaic.TcCoe Idealize.SL.Sem
open Idealize.ShloMosaic.Pipeline (Dat)

namespace Cert.RgnLoss.KernelValue

open Cert.KernelIdeal Cert.KernelIdeal.Gen

variable {F : FTy → Type} [FloatOps F]

/-- The zero offsets of the body's whole-block accesses. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-- What one run of the body stores into the accumulator block holding `acc`, from the three input blocks. -/
def step (x0 x1 : Vec F S8x256x3x3 .f32) (x2 : Vec F S8x128 .i32) (acc : Vec F S8x128 .f32) : Vec F S8x128 .f32 :=
  k0_pay1 (k0_pay8 (k0_pay6 x2 x0) (k0_pay7 x2 x0)) (k0_pay10 (k0_pay5 x2 x1)) (k0_pay11 (k0_pay5 x2 x1))
    (Scalar.ofBits .f32 0x00000000#32) acc

/-- At a point that is not the first of its half the body leaves, over the running contents `xo` of the accumulator
    block, its one covering store: `step` of the three input blocks and `xo`. -/
theorem out_B (c : Dev nD) (i : grid0.Coords) (a2 : Memref sig .tc .vmem S8x256x3x3 .f32) (h2 : a2.IsWhole)
    (a3 : Memref sig .tc .vmem S8x256x3x3 .f32) (h3 : a3.IsWhole) (a4 : Memref sig .tc .vmem S8x128 .i32) (h4 : a4.IsWhole)
    (a5 : Memref sig .tc .vmem S8x128 .f32) (h5 : a5.IsWhole) (hc : ¬cond0_0 i)
    (x0 x1 : Vec F S8x256x3x3 .f32) (x2 : Vec F S8x128 .i32) (xo : Vec F S8x128 .f32) :
    out0_B_3 c i a2 h2 a3 h3 a4 h4 a5 h5 hc x0 x1 x2 xo = step x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz2]
  unfold step
  simp only [View.readAt_eq_ld, h2.read_unread, h3.read_unread, h4.read_unread, h5.read_unread,
    View.ld_unit_zero (S := S8x128) hz2, View.ld_unit_zero (S := S8x256x3x3) hz4]

/-- At the first point of a half the body stores the zero block, reads it back, and leaves `step` of the three input
    blocks over that zero block. -/
theorem out_A (c : Dev nD) (i : grid0.Coords) (a2 : Memref sig .tc .vmem S8x256x3x3 .f32) (h2 : a2.IsWhole)
    (a3 : Memref sig .tc .vmem S8x256x3x3 .f32) (h3 : a3.IsWhole) (a4 : Memref sig .tc .vmem S8x128 .i32) (h4 : a4.IsWhole)
    (a5 : Memref sig .tc .vmem S8x128 .f32) (h5 : a5.IsWhole) (hc : cond0_0 i)
    (x0 x1 : Vec F S8x256x3x3 .f32) (x2 : Vec F S8x128 .i32) :
    out0_A_3 c i a2 h2 a3 h3 a4 h4 a5 h5 hc x0 x1 x2 = step x0 x1 x2 (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x128) hz2, View.readCov_unit_zero (S := S8x128) _ hz2]
  unfold step
  simp only [View.readAt_eq_ld, h2.read_unread, h3.read_unread, h4.read_unread,
    View.ld_unit_zero (S := S8x128) hz2, View.ld_unit_zero (S := S8x256x3x3) hz4]

/-! ## The accumulation over the grid, at the ideal instance -/

section Run

variable (m : (ℓ : Loc nD τ sig) → Buf (Elt Ideal) ℓ) (ρ : Dev nD → PrngReg)

/-- The three input blocks of grid point `t`, at their literal types. -/
abbrev xblk (c : Dev nD) (t : Fin cfg0.N) : Vec Ideal S8x256x3x3 .f32 := iblk m c 0 t
abbrev tblk (c : Dev nD) (t : Fin cfg0.N) : Vec Ideal S8x256x3x3 .f32 := iblk m c 1 t
abbrev pblk (c : Dev nD) (t : Fin cfg0.N) : Vec Ideal S8x128 .i32 := iblk m c 2 t

/-- The sum of the pair terms of the 8 groups of grid point `n`'s blocks (zero past the grid). -/
def bsum (c : Dev nD) (n : ℕ) : EReal :=
  if h : n < cfg0.N then
    ∑ g : Fin 8, groupSum (rowsBlk (xblk m c ⟨n, h⟩) (pblk m c ⟨n, h⟩) g) (rowsBlk (tblk m c ⟨n, h⟩) (pblk m c ⟨n, h⟩) g)
  else 0

/-- Inside the grid the block sum is the sum over the block's 8 groups. -/
theorem bsum_of_lt (c : Dev nD) (n : ℕ) (h : n < cfg0.N) : bsum m c n
    = ∑ g : Fin 8, groupSum (rowsBlk (xblk m c ⟨n, h⟩) (pblk m c ⟨n, h⟩) g) (rowsBlk (tblk m c ⟨n, h⟩) (pblk m c ⟨n, h⟩) g) :=
  dif_pos h

/-- One run of the body adds the point's block sum to every entry of the accumulator block. -/
theorem step_eq (x0 x1 : Vec Ideal S8x256x3x3 .f32) (x2 : Vec Ideal S8x128 .i32) (acc : Vec Ideal S8x128 .f32)
    (h2 : ∀ i, (x2 i).toNat < 256) :
    step x0 x1 x2 acc = fun y => acc y + ∑ g : Fin 8, groupSum (rowsBlk x0 x2 g) (rowsBlk x1 x2 g) :=
  block_payload x0 x1 x2 acc h2

/-- What the output block holds after point `n`: every entry is the accumulator of the block sums. -/
theorem outsAt_eq (c : Dev nD) (hp : ∀ (t : Fin cfg0.N) i, (pblk m c t i).toNat < 256) :
    ∀ (n : ℕ) (h : n < cfg0.N), outsAt0 m c n h = fun _ => accumOf (bsum m c) n
  | 0, h => by
    rw [outsAt0_A m c ⟨0, h⟩ rfl, out_A]
    show step (xblk m c ⟨0, h⟩) (tblk m c ⟨0, h⟩) (pblk m c ⟨0, h⟩) (k0_pay2 (F := Ideal)) = _
    rw [step_eq _ _ _ _ (hp ⟨0, h⟩)]
    funext y
    show zeroW + _ = accumOf (bsum m c) 0
    rw [accumOf, bsum_of_lt m c 0 h]
  | n + 1, h => by
    by_cases h0 : (n + 1) % 32 = 0
    · rw [outsAt0_A m c ⟨n + 1, h⟩ h0, out_A]
      show step (xblk m c ⟨n + 1, h⟩) (tblk m c ⟨n + 1, h⟩) (pblk m c ⟨n + 1, h⟩) (k0_pay2 (F := Ideal)) = _
      rw [step_eq _ _ _ _ (hp ⟨n + 1, h⟩)]
      funext y
      show zeroW + _ = accumOf (bsum m c) (n + 1)
      rw [accumOf, if_pos h0, bsum_of_lt m c (n + 1) h]
    · rw [outsAt0_B m c ⟨n + 1, h⟩ h0, out_B]
      show step (xblk m c ⟨n + 1, h⟩) (tblk m c ⟨n + 1, h⟩) (pblk m c ⟨n + 1, h⟩) (outsAt0 m c n (Nat.lt_of_succ_lt h)) = _
      rw [step_eq _ _ _ _ (hp ⟨n + 1, h⟩), outsAt_eq c hp n (Nat.lt_of_succ_lt h)]
      funext y
      show accumOf (bsum m c) n + _ = accumOf (bsum m c) (n + 1)
      rw [accumOf, if_neg h0, bsum_of_lt m c (n + 1) h]

end Run

section Final

variable (m : (ℓ : Loc nD τ sig) → Buf (Elt Ideal) ℓ) (ρ : Dev nD → PrngReg)

/-- The result array after the run: its first 8 rows hold the accumulator after point 31, its last 8 after point 63. -/
def result (c : Dev nD) : Vec Ideal S16x128 .f32 :=
  fun i => if (i 0).val < 8 then accumOf (bsum m c) 31 else accumOf (bsum m c) 63

/-- What a write-back writes is the block of `result` it covers: at point 31 rows 0–7, at point 63 rows 8–15, each
    entry the accumulator after that point. -/
theorem flushed_eq (c : Dev nD) (hp : ∀ (t : Fin cfg0.N) i, (pblk m c t i).toNat < 256) (t : Fin cfg0.N)
    (hf : (cfg0.win 3).flush t = true) :
    (dats m 0 c).flushed 3 t = ((cfg0.win 3).blk t).view.read (Elt Ideal) (result m c) := by
  have h31 := (flush0_3 t).mp hf
  have hN : t.val < 64 := lt_of_lt_of_eq t.isLt (show cfg0.N = 64 from N_0)
  show (cfg0.win 3).cut (grid0.coords t) ((dats m 0 c).after 3 t) = _
  rw [after0_3, outsAt_eq m c hp]
  funext y
  rw [View.read_apply]
  have hi : win0_3.index t 0 = t.val / 32 :=
    (by decide +kernel : ∀ t : Fin grid0.N, win0_3.index t (0 : Fin 2) = t.val / 32) t
  have hx : win0_3.xsize (grid0.coords t) 0 = 8 :=
    (by decide +kernel : ∀ t : Fin grid0.N, win0_3.xsize (grid0.coords t) (0 : Fin 2) = 8) t
  have hy : (y 0).val < 8 := lt_of_lt_of_eq (y 0).isLt hx
  show accumOf (bsum m c) t.val = result m c (((cfg0.win 3).blk t).view.emb y)
  have he : ((((cfg0.win 3).blk t).view.emb y) 0).val = win0_3.index t 0 * 8 + 1 * (y 0).val := rfl
  unfold result
  rw [he, hi]
  rcases (by omega : t.val = 31 ∨ t.val = 63) with h | h
  · rw [h, if_pos (by omega)]
  · rw [h, if_neg (by omega)]

/-- The 64 grid points, and the two that write the result block back. -/
theorem N64 : cfg0.N = 64 := N_0
abbrev t31 : Fin cfg0.N := ⟨31, by rw [N64]; decide⟩
abbrev t63 : Fin cfg0.N := ⟨63, by rw [N64]; decide⟩

/-- The two write-backs cover the result array (rows 0–7 at point 31, rows 8–15 at point 63): it ends at `result`. -/
theorem final (c : Dev nD) (hp : ∀ (t : Fin cfg0.N) i, (pblk m c t i).toNat < 256) :
    (dats m 0 c).arrAt 3 cfg0.N = result m c :=
  (dats m 0 c).arrAt_eq_of_cover 3 (result m c) (flushed_eq m c hp) fun i => by
    have h0 : (i 0 : Nat) < 16 := (i 0).isLt
    have h1 : (i 1 : Nat) < 128 := (i 1).isLt
    by_cases h : (i 0 : Nat) < 8
    · refine ⟨t31, (flush0_3 t31).mpr rfl, ?_⟩
      show i ∈ ((View.whole main_v8).slice (win0_3.rect t31)).set
      rw [View.set_slice_whole, Rect.mem_set_unit]
      intro a
      match a with
      | ⟨0, _⟩ =>
        show win0_3.index t31 0 * win0_3.size 0 ≤ (i 0 : Nat) ∧ (i 0 : Nat) < win0_3.index t31 0 * win0_3.size 0 + win0_3.xsize (grid0.coords t31) 0
        rw [show win0_3.index t31 0 * win0_3.size 0 = 0 from by decide +kernel, show win0_3.xsize (grid0.coords t31) 0 = 8 from by decide +kernel]; omega
      | ⟨1, _⟩ =>
        show win0_3.index t31 1 * win0_3.size 1 ≤ (i 1 : Nat) ∧ (i 1 : Nat) < win0_3.index t31 1 * win0_3.size 1 + win0_3.xsize (grid0.coords t31) 1
        rw [show win0_3.index t31 1 * win0_3.size 1 = 0 from by decide +kernel, show win0_3.xsize (grid0.coords t31) 1 = 128 from by decide +kernel]; omega
    · refine ⟨t63, (flush0_3 t63).mpr rfl, ?_⟩
      show i ∈ ((View.whole main_v8).slice (win0_3.rect t63)).set
      rw [View.set_slice_whole, Rect.mem_set_unit]
      intro a
      match a with
      | ⟨0, _⟩ =>
        show win0_3.index t63 0 * win0_3.size 0 ≤ (i 0 : Nat) ∧ (i 0 : Nat) < win0_3.index t63 0 * win0_3.size 0 + win0_3.xsize (grid0.coords t63) 0
        rw [show win0_3.index t63 0 * win0_3.size 0 = 8 from by decide +kernel, show win0_3.xsize (grid0.coords t63) 0 = 8 from by decide +kernel]; omega
      | ⟨1, _⟩ =>
        show win0_3.index t63 1 * win0_3.size 1 ≤ (i 1 : Nat) ∧ (i 1 : Nat) < win0_3.index t63 1 * win0_3.size 1 + win0_3.xsize (grid0.coords t63) 1
        rw [show win0_3.index t63 1 * win0_3.size 1 = 0 from by decide +kernel, show win0_3.xsize (grid0.coords t63) 1 = 128 from by decide +kernel]; omega

/-- The scalar reshape of the one-element slice at offset `off` of a [16, 128] array is the array's entry there. -/
theorem scalar_of_slice (R : Vec Ideal S16x128 .f32) (off : Fin 2 → Nat) (h : S16x128.Slices off S1x1)
    (hc : S1x1.ShapeCasts S_) (i : S_.Idx) (k : S16x128.Idx) (hk : ∀ a, (k a).val = off a) :
    shapeCast S_ (extractStridedSlice S1x1 off R h) hc i = R k := by
  have e0 : (S1x1.rowMajor (ValueIdx.ix2 (0 : Fin 1) (0 : Fin 1))).val = (S_.rowMajor i).val := by
    have h1 := (S1x1.rowMajor (ValueIdx.ix2 (0 : Fin 1) (0 : Fin 1))).isLt
    have h2 := (S_.rowMajor i).isLt
    have n1 : S1x1.numel = 1 := by decide
    have n2 : S_.numel = 1 := by decide
    omega
  rw [shapeCast_apply (extractStridedSlice S1x1 off R h) hc i (ValueIdx.ix2 (0 : Fin 1) (0 : Fin 1)) e0]
  exact extractStridedSlice_apply off R h (ValueIdx.ix2 (0 : Fin 1) (0 : Fin 1)) k fun a => by
    rw [hk a]
    match a with
    | ⟨0, _⟩ => rfl
    | ⟨1, _⟩ => rfl

/-- The kernel program's result: the two halves' accumulators added and divided by the word of `2^23`. -/
def kres (c : Dev nD) : FVec Ideal S_ .f32 :=
  Host.divf (F := Ideal) (addf (F := Ideal) (fun _ => accumOf (bsum m c) 31) (fun _ => accumOf (bsum m c) 63))
    (constant (F := Ideal) S_ .f32 0x4B000000#32)

/-- The host operations after the region, applied to the result array: entries (0, 0) and (8, 0) added, then divided. -/
theorem tail_eq (c : Dev nD) (hp : ∀ (t : Fin cfg0.N) i, (pblk m c t i).toNat < 256) :
    Pipeline.afterTail₀ cfgs (dats m) 0 (V0 m) [hostOps1] c main_v14 = kres m c := by
  unfold Pipeline.afterTail₀
  show StableHlo.after hostOps1 _ (Proc.devRef .tc main_v14) = _
  after_results
  have hw : Pipeline.withArrays (cfgs 0).spec c (V0 m c) (fun w => (dats m 0 c).arrAt w (cfgs 0).N) (Proc.devRef .tc main_v8)
      = result m c :=
    (Pipeline.withArrays_arr spec0 launch0.win.arr_inj c _ _ 3).trans (final m c hp)
  rw [hw]
  unfold kres
  refine congrArg (fun z => Host.divf (F := Ideal) z (constant (F := Ideal) S_ .f32 0x4B000000#32)) ?_
  refine congrArg₂ (addf (F := Ideal)) (funext fun i => ?_) (funext fun i => ?_)
  · show shapeCast S_ (extractStridedSlice S1x1 ![0, 0] (result m c) slices_S16x128_S1x1_0_0) shapeCasts_S1x1_S_ i = _
    rw [scalar_of_slice (result m c) ![0, 0] _ _ i (ValueIdx.ix2 (0 : Fin 16) (0 : Fin 128)) (fun a => by
      match a with
      | ⟨0, _⟩ => rfl
      | ⟨1, _⟩ => rfl)]
    unfold result
    rw [if_pos (by decide)]
  · show shapeCast S_ (extractStridedSlice S1x1 ![8, 0] (result m c) slices_S16x128_S1x1_8_0) shapeCasts_S1x1_S_ i = _
    rw [scalar_of_slice (result m c) ![8, 0] _ _ i (ValueIdx.ix2 (8 : Fin 16) (0 : Fin 128)) (fun a => by
      match a with
      | ⟨0, _⟩ => rfl
      | ⟨1, _⟩ => rfl)]
    unfold result
    rw [if_neg (by decide)]

/-- The kernel program's run, read: its result buffer ends at `kres`, its arguments unchanged. -/
theorem run (hp : ∀ (c : Dev nD) (t : Fin cfg0.N) i, (pblk m c t i).toNat < 256) :
    θ_run defs (onTc (τ := τ) (main (F := Ideal))) ⟨m, fun _ => 0, ρ⟩ fun r => ∀ c : Dev nD,
      r.2.mem ((c.tc : Thread nD τ).loc main_v14) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_eq m c (hp c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The blocks, read off the argument arrays -/

/-- The region finds the two coordinate arrays reshaped to [512, 256, 3, 3] and the positions made group-local. -/
theorem V_v0 (c : Dev nD) : (V m c main_v0 : Vec Ideal S512x256x3x3 .f32)
    = shapeCast S512x256x3x3 (m ((c : Thread nD τ).loc main_arg0)) shapeCasts_S131072x3x3_S512x256x3x3 := by
  show StableHlo.after hostOps0 (fun b => m (c, b)) (Proc.devRef .tc main_v0) = _
  after_results
  rfl

theorem V_v1 (c : Dev nD) : (V m c main_v1 : Vec Ideal S512x256x3x3 .f32)
    = shapeCast S512x256x3x3 (m ((c : Thread nD τ).loc main_arg1)) shapeCasts_S131072x3x3_S512x256x3x3 := by
  show StableHlo.after hostOps0 (fun b => m (c, b)) (Proc.devRef .tc main_v1) = _
  after_results
  rfl

theorem V_v7 (c : Dev nD) : (V m c main_v7 : IVec S512x128 32)
    = subi (m ((c : Thread nD τ).loc main_arg2)) (broadcastInDim S512x128 ![0, 1] bcast_S512x1_S512x128_0_1
        (broadcastInDim S512x1 ![0] bcast_S512_S512x1_0
          (muli (iotaInDim S512 32 0) (broadcastInDim S512 ![] bcast_S_S512 (constantI S_ 32 256#32))))) := by
  show StableHlo.after hostOps0 (fun b => m (c, b)) (Proc.devRef .tc main_v7) = _
  after_results

/-- Group `8 t + g`: the `g`-th group of grid point `t`'s blocks. -/
abbrev grp (t : Fin cfg0.N) (g : Fin 8) : Fin 512 := ⟨8 * t.val + g.val, by have := lt_of_lt_of_eq t.isLt N64; omega⟩

/-- Where the three input windows sit at point `t`: block `t` along the group axis, block 0 along the others. -/
theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)
theorem idx1 : ∀ t : Fin cfg0.N, win0_1.index t 0 = t.val ∧ win0_1.index t 1 = 0 ∧ win0_1.index t 2 = 0 ∧ win0_1.index t 3 = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)
theorem idx2 : ∀ t : Fin cfg0.N, win0_2.index t 0 = t.val ∧ win0_2.index t 1 = 0 :=
  (by decide +kernel : ∀ t : Fin grid0.N, win0_2.index t (0 : Fin 2) = t.val ∧ win0_2.index t (1 : Fin 2) = 0)

/-- Entry `(g, l, r, k)` of point `t`'s block of the first coordinate array is entry `(8 t + g, l, r, k)` of the array. -/
theorem xblk_apply (c : Dev nD) (t : Fin cfg0.N) (g : Fin 8) (l : Fin 256) (r k : Fin 3) :
    xblk m c t (ValueIdx.ix4 g l r k) = (V m c main_v0 : Vec Ideal S512x256x3x3 .f32) (ValueIdx.ix4 (grp t g) l r k) := by
  obtain ⟨h0, h1, h2, h3⟩ := idx0 t
  show iblk m c 0 t (ValueIdx.ix4 g l r k) = _
  unfold iblk
  rw [View.read_apply]
  show V m c main_v0 _ = V m c main_v0 _
  congr 1
  funext a
  apply Fin.ext
  match a with
  | ⟨0, _⟩ => show win0_0.index t 0 * 8 + 1 * g.val = 8 * t.val + g.val; rw [h0]; omega
  | ⟨1, _⟩ => show win0_0.index t 1 * 256 + 1 * l.val = l.val; rw [h1]; omega
  | ⟨2, _⟩ => show win0_0.index t 2 * 3 + 1 * r.val = r.val; rw [h2]; omega
  | ⟨3, _⟩ => show win0_0.index t 3 * 3 + 1 * k.val = k.val; rw [h3]; omega

/-- The same for the second coordinate array. -/
theorem tblk_apply (c : Dev nD) (t : Fin cfg0.N) (g : Fin 8) (l : Fin 256) (r k : Fin 3) :
    tblk m c t (ValueIdx.ix4 g l r k) = (V m c main_v1 : Vec Ideal S512x256x3x3 .f32) (ValueIdx.ix4 (grp t g) l r k) := by
  obtain ⟨h0, h1, h2, h3⟩ := idx1 t
  show iblk m c 1 t (ValueIdx.ix4 g l r k) = _
  unfold iblk
  rw [View.read_apply]
  show V m c main_v1 _ = V m c main_v1 _
  congr 1
  funext a
  apply Fin.ext
  match a with
  | ⟨0, _⟩ => show win0_1.index t 0 * 8 + 1 * g.val = 8 * t.val + g.val; rw [h0]; omega
  | ⟨1, _⟩ => show win0_1.index t 1 * 256 + 1 * l.val = l.val; rw [h1]; omega
  | ⟨2, _⟩ => show win0_1.index t 2 * 3 + 1 * r.val = r.val; rw [h2]; omega
  | ⟨3, _⟩ => show win0_1.index t 3 * 3 + 1 * k.val = k.val; rw [h3]; omega

/-- Entry `(g, s)` of point `t`'s block of the group-local positions is entry `(8 t + g, s)` of that array. -/
theorem pblk_apply (c : Dev nD) (t : Fin cfg0.N) (g : Fin 8) (s : Fin 128) :
    pblk m c t (ValueIdx.ix2 g s) = (V m c main_v7 : IVec S512x128 32) (ValueIdx.ix2 (grp t g) s) := by
  obtain ⟨h0, h1⟩ := idx2 t
  show iblk m c 2 t (ValueIdx.ix2 g s) = _
  unfold iblk
  rw [View.read_apply]
  show V m c main_v7 _ = V m c main_v7 _
  congr 1
  funext a
  apply Fin.ext
  match a with
  | ⟨0, _⟩ => show win0_2.index t 0 * 8 + 1 * g.val = 8 * t.val + g.val; rw [h0]; omega
  | ⟨1, _⟩ => show win0_2.index t 1 * 128 + 1 * s.val = s.val; rw [h1]; omega

/-- The reshape to [512, 256, 3, 3] read at `(G, l, r, k)`: residue `256 G + l` of the argument. -/
theorem reshape_apply (X : FVec Ideal S131072x3x3 .f32) (G : Fin 512) (l : Fin 256) (r k : Fin 3) :
    shapeCast S512x256x3x3 X shapeCasts_S131072x3x3_S512x256x3x3 (ValueIdx.ix4 G l r k)
      = X (ValueIdx.ix3 (⟨256 * G.val + l.val, by omega⟩ : Fin 131072) r k) := by
  refine shapeCast_apply X _ _ _ ?_
  rw [Shape.rowMajor_val_three, Shape.rowMajor_val_four]
  show ((256 * G.val + l.val) * 3 + r.val) * 3 + k.val = ((G.val * 256 + l.val) * 3 + r.val) * 3 + k.val
  omega

/-- The group bases `(iota(512) * 256)[:, None]` laid over the [512, 128] rectangle read, at `(G, s)`, the word `G * 256`. -/
theorem base_apply (G : Fin 512) (s : Fin 128) :
    broadcastInDim S512x128 ![0, 1] bcast_S512x1_S512x128_0_1 (broadcastInDim S512x1 ![0] bcast_S512_S512x1_0
      (muli (iotaInDim S512 32 0) (broadcastInDim S512 ![] bcast_S_S512 (constantI S_ 32 256#32)))) (ValueIdx.ix2 G s)
      = BitVec.ofNat 32 G.val * 256#32 := by
  have e : StableHlo.Predicate.ij G s = ValueIdx.ix2 G s := by
    funext d; match d with | ⟨0, _⟩ => rfl | ⟨1, _⟩ => rfl
  rw [← e]
  exact (StableHlo.Predicate.bcast_rows bcast_S512_S512x1_0 bcast_S512x1_S512x128_0_1 _ G s).trans rfl

/-- A position inside its group's range, made group-local as words: no wrap, the difference of the numbers. -/
theorem local_toNat (p : BitVec 32) (G : ℕ) (hG : G < 512) (h : 256 * G ≤ p.toNat ∧ p.toNat < 256 * G + 256) :
    (p - BitVec.ofNat 32 G * 256#32).toNat = p.toNat - 256 * G := by
  have hp := p.isLt
  rw [BitVec.toNat_sub, BitVec.toNat_mul, BitVec.toNat_ofNat]
  simp only [BitVec.toNat_ofNat]
  omega

/-! ## The result is the loss -/

/-- The three argument arrays on device `c`, at their literal types. -/
abbrev xarr (c : Dev nD) : FVec Ideal S131072x3x3 .f32 := m ((c : Thread nD τ).loc main_arg0)
abbrev tarr (c : Dev nD) : FVec Ideal S131072x3x3 .f32 := m ((c : Thread nD τ).loc main_arg1)
abbrev parr (c : Dev nD) : IVec S512x128 32 := m ((c : Thread nD τ).loc main_arg2)

/-- Every position of group `G` lies in that group's range of 256 residues (the precondition's fact, on device `c`). -/
def InRange (c : Dev nD) : Prop :=
  ∀ (G : Fin 512) (s : Fin 128),
    256 * G.val ≤ (parr m c (ValueIdx.ix2 G s)).toNat
      ∧ (parr m c (ValueIdx.ix2 G s)).toNat < 256 * G.val + 256

/-- A block's position is the argument's position less its group's base. -/
theorem pblk_val (c : Dev nD) (t : Fin cfg0.N) (g : Fin 8) (s : Fin 128) :
    pblk m c t (ValueIdx.ix2 g s)
      = parr m c (ValueIdx.ix2 (grp t g) s)
        - BitVec.ofNat 32 (grp t g).val * 256#32 := by
  rw [pblk_apply, V_v7]
  exact congrArg (fun z : BitVec 32 =>
    (parr m c (ValueIdx.ix2 (grp t g) s) : BitVec 32) - z)
    (base_apply (grp t g) s)

/-- As a number, inside the group's range: the position less `256 G`. -/
theorem pblk_toNat (c : Dev nD) (h : InRange m c) (t : Fin cfg0.N) (g : Fin 8) (s : Fin 128) :
    (pblk m c t (ValueIdx.ix2 g s)).toNat
      = (parr m c (ValueIdx.ix2 (grp t g) s)).toNat - 256 * (grp t g).val := by
  rw [pblk_val]
  exact local_toNat _ _ (grp t g).isLt (h (grp t g) s)

/-- So every group-local position is below 256. -/
theorem pblk_lt (c : Dev nD) (h : InRange m c) (t : Fin cfg0.N) (i : S8x128.Idx) : (pblk m c t i).toNat < 256 := by
  obtain ⟨g, s, rfl⟩ : ∃ (g : Fin 8) (s : Fin 128), i = ValueIdx.ix2 g s := ⟨i 0, i 1, ValueIdx.eq_ix2 i⟩
  rw [pblk_toNat m c h]
  have := h (grp t g) s
  omega

/-- The sampled atoms of a block's group `g` are the sampled atoms of group `8 t + g` of the whole arrays. -/
theorem rows_x (c : Dev nD) (h : InRange m c) (t : Fin cfg0.N) (g : Fin 8) :
    rowsBlk (xblk m c t) (pblk m c t) g
      = rows (xarr m c) (parr m c) (grp t g) := by
  funext s k
  unfold rowsBlk rows
  rw [xblk_apply, V_v0, reshape_apply]
  have hl := pblk_toNat m c h t g s
  have hr := h (grp t g) s
  have hG := (grp t g).isLt
  congr 2
  apply Fin.ext
  show 256 * (grp t g).val + (pblk m c t (ValueIdx.ix2 g s)).toNat % 256 = _ % 131072
  rw [hl]
  omega

/-- The same for the second coordinate array. -/
theorem rows_t (c : Dev nD) (h : InRange m c) (t : Fin cfg0.N) (g : Fin 8) :
    rowsBlk (tblk m c t) (pblk m c t) g
      = rows (tarr m c) (parr m c) (grp t g) := by
  funext s k
  unfold rowsBlk rows
  rw [tblk_apply, V_v1, reshape_apply]
  have hl := pblk_toNat m c h t g s
  have hr := h (grp t g) s
  have hG := (grp t g).isLt
  congr 2
  apply Fin.ext
  show 256 * (grp t g).val + (pblk m c t (ValueIdx.ix2 g s)).toNat % 256 = _ % 131072
  rw [hl]
  omega

/-- Group `G`'s sum of pair terms (zero past the last group). -/
def gsum (c : Dev nD) (G : ℕ) : EReal :=
  if h : G < 512 then
    groupSum (rows (xarr m c) (parr m c) ⟨G, h⟩)
      (rows (tarr m c) (parr m c) ⟨G, h⟩)
  else 0

/-- Grid point `n`'s block sum is the sum of its 8 groups' sums. -/
theorem bsum_eq (c : Dev nD) (h : InRange m c) (n : ℕ) (hn : n < 64) :
    bsum m c n = ∑ g : Fin 8, gsum m c (8 * n + g.val) := by
  have hn' : n < cfg0.N := lt_of_lt_of_eq hn N64.symm
  rw [bsum_of_lt m c n hn']
  refine Finset.sum_congr rfl fun g _ => ?_
  rw [rows_x m c h, rows_t m c h]
  have hg := g.isLt
  unfold gsum
  rw [dif_pos (show 8 * n + g.val < 512 by omega)]

/-- The two halves' accumulators add up to the sum over all groups. -/
theorem halves_eq (c : Dev nD) (h : InRange m c) :
    accumOf (bsum m c) 31 + accumOf (bsum m c) 63 = total (xarr m c) (tarr m c) (parr m c) := by
  rw [accumOf_31, accumOf_63]
  unfold total
  have e : (∑ G : Fin 512, groupSum (rows (xarr m c) (parr m c) G) (rows (tarr m c) (parr m c) G))
      = ∑ G : Fin 512, gsum m c G.val :=
    Finset.sum_congr rfl fun G _ => by unfold gsum; rw [dif_pos G.isLt]
  rw [e, sum_groups (gsum m c)]
  refine congrArg₂ (fun a b : EReal => a + b) ?_ ?_
  · exact Finset.sum_congr rfl fun j _ => bsum_eq m c h j.val (by have := j.isLt; omega)
  · exact Finset.sum_congr rfl fun j _ => bsum_eq m c h (32 + j.val) (by have := j.isLt; omega)

/-- The kernel program's result is the loss. -/
theorem kres_eq (c : Dev nD) (h : InRange m c) : kres m c = loss (xarr m c) (tarr m c) (parr m c) := by
  have e : kres m c = Host.divf (F := Ideal) (fun _ => accumOf (bsum m c) 31 + accumOf (bsum m c) 63)
      (constant (F := Ideal) S_ .f32 0x4B000000#32) := rfl
  rw [e, halves_eq m c h]
  rfl

end Final

end Cert.RgnLoss.KernelValue

end
-- ==== Proof.RefValue.lean ====
/-
  The reference's result, read back from its run: under the precondition's two facts it is the loss.
-/
import proofs.«417519_j83056077570643_3_alg».proof.Proof.Gen.ReferenceIdeal.Read
import proofs.«417519_j83056077570643_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.RgnLoss

open Idealize.ShloMosaic Idealize.ShloMosaic.TcCoe Idealize.ShloMosaic.ValueIdx Idealize.SL.Sem Cert.ReferenceIdeal

/-- The gather's dimension numbers, under a short name. -/
private abbrev gd [Facts₀] : GatherDims S131072x3 S512x128x1 S512x128x3 := gather_S131072x3_S512x128x1_S512x128x3_2_0_n_n_0_2_13

/-- On the table's row axis the slice starts at the start index, read signed and clamped so that one row fits. -/
private theorem gd_start0 [Facts₀] (idx : IVec S512x128x1 32) (G : Fin 512) (s : Fin 128) (k : Fin 3) :
    gd.start (ix3 G s k) idx (0 : Fin 2) = min (idx (ix3 G s (0 : Fin 1))).toInt.toNat (131072 - 1) := by
  unfold GatherDims.start
  rw [dif_pos (show (0 : Fin 2) ∈ gd.startIndexMap from List.mem_singleton.mpr rfl)]
  have hsi : gd.siIdx (ix3 G s k) ⟨List.idxOf (0 : Fin 2) gd.startIndexMap,
      List.idxOf_lt_length_iff.2 (List.mem_singleton.mpr rfl)⟩ = ix3 G s (0 : Fin 1) := by
    funext b; refine Fin.ext ?_
    match b with
    | ⟨0, _⟩ => rfl
    | ⟨1, _⟩ => rfl
    | ⟨2, _⟩ => rfl
  rw [hsi]
  rfl

/-- On the column axis, which the start index map does not name, the slice starts at 0. -/
private theorem gd_start1 [Facts₀] (idx : IVec S512x128x1 32) (G : Fin 512) (s : Fin 128) (k : Fin 3) :
    gd.start (ix3 G s k) idx (1 : Fin 2) = 0 := by
  unfold GatherDims.start
  have h : ¬ (1 : Fin 2) ∈ gd.startIndexMap := by
    show ¬ (1 : Fin 2) ∈ ([0] : List (Fin 2))
    decide
  rw [dif_neg h]

/-- The row axis is collapsed: it takes no offset coordinate. -/
private theorem gd_off0 [Facts₀] (G : Fin 512) (s : Fin 128) (k : Fin 3) :
    gd.offCoord (ix3 G s k) (0 : Fin 2) = 0 :=
  GatherDims.offCoord_eq_zero _ _ _ (fun h => ((GatherDims.mem_sKept _ _).mp h).1 (List.mem_singleton.mpr rfl))

/-- The column axis is the one kept axis: its offset coordinate is the result's last coordinate. -/
private theorem gd_off1 [Facts₀] (G : Fin 512) (s : Fin 128) (k : Fin 3) :
    gd.offCoord (ix3 G s k) (1 : Fin 2) = k.val := by
  unfold GatherDims.offCoord
  have h : (1 : Fin 2) ∈ gd.sKept := by
    show (1 : Fin 2) ∈ S131072x3.kept (([0] : List (Fin 2)) ++ [])
    decide
  rw [dif_pos h]
  rfl

/-- The gather of rows: element `(G, s, k)` of the result is the table's row at the start index `idx[G, s, 0]`,
    read signed and clamped into the table, at column `k`. -/
private theorem gather_rows_apply [Facts₀] {α : Type} (x : S131072x3.Idx → α) (idx : IVec S512x128x1 32)
    (G : Fin 512) (s : Fin 128) (k : Fin 3) :
    Host.gather gather_S131072x3_S512x128x1_S512x128x3_2_0_n_n_0_2_13 x idx (ix3 G s k)
      = x (ix2 (⟨min (idx (ix3 G s (0 : Fin 1))).toInt.toNat (131072 - 1), by omega⟩ : Fin 131072) k) := by
  unfold Host.gather
  congr 1
  funext a
  refine Fin.ext ?_
  match a with
  | ⟨0, _⟩ =>
    show gd.start (ix3 G s k) idx (0 : Fin 2) + gd.batchCoord (ix3 G s k) (0 : Fin 2) + gd.offCoord (ix3 G s k) (0 : Fin 2) = _
    rw [gd_start0, GatherDims.batchCoord_eq_zero _ _ _ List.not_mem_nil, gd_off0]
    rfl
  | ⟨1, _⟩ =>
    show gd.start (ix3 G s k) idx (1 : Fin 2) + gd.batchCoord (ix3 G s k) (1 : Fin 2) + gd.offCoord (ix3 G s k) (1 : Fin 2) = _
    rw [gd_start1, GatherDims.batchCoord_eq_zero _ _ _ List.not_mem_nil, gd_off1]
    show 0 + 0 + k.val = k.val
    omega

open Cert.ReferenceIdeal.Read

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over real coordinates, the sum of the three squared differences taken in either order of subtraction
    and either bracketing is the same extended real. -/
private theorem sq_real (u v : Fin 3 → ℝ) :
    (0 : EReal) + ∑ k : Fin 3, ((v k : EReal) - (u k : EReal)) * ((v k : EReal) - (u k : EReal))
      = (0 : EReal) + ((u 0 : EReal) - (v 0 : EReal)) * ((u 0 : EReal) - (v 0 : EReal))
        + ((u 1 : EReal) - (v 1 : EReal)) * ((u 1 : EReal) - (v 1 : EReal))
        + ((u 2 : EReal) - (v 2 : EReal)) * ((u 2 : EReal) - (v 2 : EReal)) := by
  rw [Fin.sum_univ_three, zero_add, zero_add]
  simp only [← EReal.coe_sub, ← EReal.coe_mul, ← EReal.coe_add]
  exact congrArg _ (by ring)

/-- The operand of the gather is row 1 of each frame: entry `(r, k)` of the sliced and reshaped table is entry
    `(r, 1, k)` of the input. -/
private theorem table_apply (X : FVec Ideal SIn .f32) (r : Fin 131072) (k : Fin 3) :
    val_main_v1 (F := Ideal) X (ix2 r k) = X (ix3 r (1 : Fin 3) k) := by
  rw [val_main_v1_apply, val_main_v0_apply]
  have hk := k.isLt
  refine congrArg X (funext fun a => Fin.ext ?_)
  match a with
  | ⟨0, _⟩ =>
    show (r.val * 3 + k.val) / 3 = r.val
    omega
  | ⟨1, _⟩ => rfl
  | ⟨2, _⟩ =>
    show (r.val * 3 + k.val) % 3 = k.val
    omega

/-- A position below the table's length is not negative as a signed word, so the reference's normalization of
    negative positions leaves it as it is. -/
private theorem norm_pos (P : IVec SPos 32) (G : Fin 512) (s : Fin 128) (hp : (P (ix2 G s)).toNat < 131072) :
    val_main_v8 (F := Ideal) P (ix2 G s) = P (ix2 G s) := by
  rw [val_main_v8_apply, val_main_v5_apply, val_main_v4_apply, val_main_c_apply]
  have h : IntOp.cmpi .slt (P (ix2 G s)) 0#32 = 0#1 := by
    refine eq_zero_of_ne_one fun h1 => ?_
    have h2 := (StableHlo.Predicate.slt_iff_toNat (a := P (ix2 G s)) (b := 0#32) (by omega) (by decide)).mp h1
    exact Nat.not_lt_zero _ h2
  rw [h, select_zero]

/-- The start index the gather reads for sample `(G, s)` is the position itself. -/
private theorem start_pos (P : IVec SPos 32) (G : Fin 512) (s : Fin 128) (hp : (P (ix2 G s)).toNat < 131072) :
    val_main_v9 (F := Ideal) P (ix3 G s (0 : Fin 1)) = P (ix2 G s) := by
  rw [val_main_v9_apply]
  have h : idx_main_v9 (ix3 G s (0 : Fin 1)) = ix2 G s := by
    funext a
    match a with
    | ⟨0, _⟩ => rfl
    | ⟨1, _⟩ => rfl
  rw [h]
  exact norm_pos P G s hp

/-- The gathered rows are the sampled atoms of the group: entry `(G, s, k)` is coordinate `k` of row 1 of the frame of
    residue `positions[G, s]`. -/
private theorem ref_rows (X : FVec Ideal SIn .f32) (P : IVec SPos 32) (G : Fin 512) (s : Fin 128) (k : Fin 3)
    (hp : (P (ix2 G s)).toNat < 131072) :
    val_main_v10 (F := Ideal) X P (ix3 G s k) = rows X P G s k := by
  unfold val_main_v10
  refine (gather_rows_apply _ _ G s k).trans ?_
  refine (table_apply X _ k).trans ?_
  unfold rows
  refine congrArg X (funext fun a => Fin.ext ?_)
  match a with
  | ⟨0, _⟩ =>
    show min (val_main_v9 (F := Ideal) P (ix3 G s (0 : Fin 1))).toInt.toNat (131072 - 1) = (P (ix2 G s)).toNat % 131072
    rw [start_pos P G s hp, StableHlo.Predicate.toInt_eq_toNat_of_lt (by omega), Int.toNat_natCast,
      Nat.min_eq_left (by omega), Nat.mod_eq_of_lt hp]
  | ⟨1, _⟩ => rfl
  | ⟨2, _⟩ => rfl

/-- The reference's sum of squares for the pair `(s, s')` of group `G`, read off its stages: from the zero word, the
    three squared coordinate differences of the gathered rows `s'` and `s`. -/
private theorem ref_ssq (X : FVec Ideal SIn .f32) (P : IVec SPos 32) (G : Fin 512) (s s' : Fin 128) :
    val_main_v24 (F := Ideal) X P (ix3 G s s')
      = Ideal.ofBits .f32 0x00000000#32 + ∑ k : Fin 3,
          (val_main_v10 (F := Ideal) X P (ix3 G s' k) - val_main_v10 (F := Ideal) X P (ix3 G s k))
            * (val_main_v10 (F := Ideal) X P (ix3 G s' k) - val_main_v10 (F := Ideal) X P (ix3 G s k)) := by
  rw [val_main_v24_apply]
  refine congrArg₂ (· + ·) rfl (Finset.sum_congr rfl fun k _ => ?_)
  rw [val_main_v23_apply, val_main_v22_apply, val_main_v20_apply, val_main_v21_apply, val_main_v18_apply,
    val_main_v19_apply]
  have h1 : idx_main_v18 (idx_main_v20 (idx_main_v24 (ix3 G s s') k)) = ix3 G s' k := by
    funext a
    match a with
    | ⟨0, _⟩ => rfl
    | ⟨1, _⟩ => rfl
    | ⟨2, _⟩ => rfl
  have h2 : idx_main_v19 (idx_main_v21 (idx_main_v24 (ix3 G s s') k)) = ix3 G s k := by
    funext a
    match a with
    | ⟨0, _⟩ => rfl
    | ⟨1, _⟩ => rfl
    | ⟨2, _⟩ => rfl
  rw [h1, h2]
  rfl

/-- Over an input whose entries are real, the reference's sum of squares is the squared distance of the two sampled
    atoms. -/
private theorem ref_sq (X : FVec Ideal SIn .f32) (P : IVec SPos 32) (G : Fin 512) (s s' : Fin 128)
    (hX : ∀ i, ∃ r : ℝ, X i = (r : EReal))
    (hp : (P (ix2 G s)).toNat < 131072) (hp' : (P (ix2 G s')).toNat < 131072) :
    val_main_v24 (F := Ideal) X P (ix3 G s s') = sqDist (rows X P G) s s' := by
  choose u hu using fun k : Fin 3 =>
    hX (ix3 (⟨(P (ix2 G s)).toNat % 131072, Nat.mod_lt _ (by decide)⟩ : Fin 131072) (1 : Fin 3) k)
  choose v hv using fun k : Fin 3 =>
    hX (ix3 (⟨(P (ix2 G s')).toNat % 131072, Nat.mod_lt _ (by decide)⟩ : Fin 131072) (1 : Fin 3) k)
  have hu' : ∀ k, rows X P G s k = (u k : EReal) := hu
  have hv' : ∀ k, rows X P G s' k = (v k : EReal) := hv
  have e : sqDist (rows X P G) s s'
      = (0 : EReal) + ((u 0 : EReal) - (v 0 : EReal)) * ((u 0 : EReal) - (v 0 : EReal))
        + ((u 1 : EReal) - (v 1 : EReal)) * ((u 1 : EReal) - (v 1 : EReal))
        + ((u 2 : EReal) - (v 2 : EReal)) * ((u 2 : EReal) - (v 2 : EReal)) := by
    have hz : zeroW = 0 := Ideal.ofBits_zero_f32
    unfold sqDist
    rw [hu' 0, hu' 1, hu' 2, hv' 0, hv' 1, hv' 2, hz]
  rw [e, ← sq_real u v, ref_ssq, Ideal.ofBits_zero_f32]
  refine congrArg _ (Finset.sum_congr rfl fun k _ => ?_)
  rw [ref_rows X P G s' k hp', ref_rows X P G s k hp, hu', hv']

/-- The reference's safe distance at a pair is the safe distance from its sum of squares: the comparison with the
    zero word, the root of the sum where it is positive and of the word of one elsewhere, and zero elsewhere. -/
private theorem ref_dist (X : FVec Ideal SIn .f32) (P : IVec SPos 32) (i : S512x128x128.Idx) :
    val_main_v31 (F := Ideal) X P i = safeDist (val_main_v24 (F := Ideal) X P i) := by
  simp only [val_main_v31_apply, val_main_v29_apply, val_main_v30_apply, val_main_v27_apply, val_main_v26_apply,
    val_main_v28_apply, val_main_v25_apply, val_main_call1_v1_apply, val_main_call0_v1_apply]
  rfl

/-- One pair's contribution in the reference is the squared difference of the two safe distances. -/
private theorem ref_pair (X T : FVec Ideal SIn .f32) (P : IVec SPos 32) (G : Fin 512) (s s' : Fin 128)
    (hX : ∀ i, ∃ r : ℝ, X i = (r : EReal)) (hT : ∀ i, ∃ r : ℝ, T i = (r : EReal))
    (hp : (P (ix2 G s)).toNat < 131072) (hp' : (P (ix2 G s')).toNat < 131072) :
    val_main_v47 (F := Ideal) X T P (ix3 G s s') = pairTerm (rows X P G) (rows T P G) s s' := by
  have h45 : val_main_v45 (F := Ideal) T P = val_main_v31 (F := Ideal) T P := rfl
  rw [val_main_v47_apply, val_main_v46_apply, h45, ref_dist, ref_dist, ref_sq X P G s s' hX hp hp',
    ref_sq T P G s s' hT hp hp']
  rfl

/-- The reference's full sum is the sum over all groups and pairs. -/
private theorem ref_total (X T : FVec Ideal SIn .f32) (P : IVec SPos 32)
    (hX : ∀ i, ∃ r : ℝ, X i = (r : EReal)) (hT : ∀ i, ∃ r : ℝ, T i = (r : EReal))
    (hP : ∀ (G : Fin 512) (s : Fin 128), (P (ix2 G s)).toNat < 131072) :
    val_main_v48 (F := Ideal) X T P = fun _ => total X T P := by
  funext i
  rw [val_main_v48_apply]
  have hz : ∀ j, val_main_cst_12 (F := Ideal) j = 0 := fun _ => Ideal.ofBits_zero_f32
  rw [hz, zero_add]
  refine (sum_idx3 (n0 := 512) (n1 := 128) (n2 := 128) _).trans ?_
  unfold total groupSum
  refine Finset.sum_congr rfl fun G _ => Finset.sum_congr rfl fun s _ => Finset.sum_congr rfl fun s' _ => ?_
  exact ref_pair X T P G s s' hX hT (hP G s) (hP G s')

theorem ref_value (m : (ℓ : Loc nD τ sig) → Buf (Elt Ideal) ℓ) (c : Dev nD)
    (hX : ∀ i, ∃ r : ℝ, (m ((c.tc : Thread nD τ).loc main_arg0) : FVec Ideal SIn .f32) i = (r : EReal))
    (hT : ∀ i, ∃ r : ℝ, (m ((c.tc : Thread nD τ).loc main_arg1) : FVec Ideal SIn .f32) i = (r : EReal))
    (hP : ∀ (G : Fin 512) (s : Fin 128), 256 * G.val ≤ ((m ((c.tc : Thread nD τ).loc main_arg2) : IVec SPos 32) (ix2 G s)).toNat
      ∧ ((m ((c.tc : Thread nD τ).loc main_arg2) : IVec SPos 32) (ix2 G s)).toNat < 256 * G.val + 256) :
    Cert.ReferenceIdeal.Value.res_out0 (F := Ideal) m c
      = loss (m ((c.tc : Thread nD τ).loc main_arg0)) (m ((c.tc : Thread nD τ).loc main_arg1)) (m ((c.tc : Thread nD τ).loc main_arg2)) := by
  have hP' : ∀ (G : Fin 512) (s : Fin 128),
      ((m ((c.tc : Thread nD τ).loc main_arg2) : IVec SPos 32) (ix2 G s)).toNat < 131072 := fun G s => by
    have h1 := (hP G s).2
    have h2 := G.isLt
    omega
  show Cert.ReferenceIdeal.Value.res_main_v49 (F := Ideal) m c = _
  rw [val_main_v49_eq]
  unfold val_main_v49 loss
  rw [ref_total _ _ _ hX hT hP']
  rfl

end Cert.RgnLoss

end
-- ==== Proof.lean ====
/-
  The kernel and the reference compute one loss (Proof/Spec.lean): over 512 groups of 256 residues, the mean over all
  pairs of 128 sampled CA atoms per group of the squared difference between the pairwise distance in `inputs` and
  the pairwise distance in `target`.

  The reference gathers the sampled rows from the whole arrays and reduces over every group and pair at once. The
  kernel walks the groups in 64 blocks of 8; in a block it picks each sampled row out of that group's own 256 residues
  with a one-hot matrix product over group-local positions `positions - 256 G`, sums the block's pair terms, and adds
  them into one of two accumulators (blocks 0–31, blocks 32–63), which the host adds and divides by `2^23`.
  A one-hot row has a single one exactly when the local position lies in `[0, 256)`, which is the precondition's range
  conjunct `256 G ≤ positions[G, s] < 256 G + 256`; then the selected row is the gathered one (Proof/BlockValue.lean),
  the accumulators hold the sums of their 32 block sums (Proof/KernelValue.lean, Proof/Sums.lean), and the two halves
  together are the sum over all 512 groups. On the reference's side (Proof/RefValue.lean) the squared coordinate
  differences are taken with the opposite sign and summed in another grouping, which agrees on real entries: that is
  where the precondition's finiteness is used. Proof/PreDecode.lean reads both facts out of the printed precondition.
  The three frames are the generated ones; no operation was rewritten by the idealization, so `preserves` is trivial.
-/
import proofs.«417519_j83056077570643_3_alg».proof.Defs
import proofs.«417519_j83056077570643_3_alg».proof.Proof.Gen.Kernel
import proofs.«417519_j83056077570643_3_alg».proof.Proof.Gen.Kernel.Skeleton
import proofs.«417519_j83056077570643_3_alg».proof.Proof.Gen.Kernel.Launch
import proofs.«417519_j83056077570643_3_alg».proof.Proof.Gen.Kernel.Points
import proofs.«417519_j83056077570643_3_alg».proof.Proof.Gen.Kernel.Frame
import proofs.«417519_j83056077570643_3_alg».proof.Proof.Gen.KernelIdeal
import proofs.«417519_j83056077570643_3_alg».proof.Proof.Gen.KernelIdeal.Skeleton
import proofs.«417519_j83056077570643_3_alg».proof.Proof.Gen.KernelIdeal.Launch
import proofs.«417519_j83056077570643_3_alg».proof.Proof.Gen.KernelIdeal.Points
import proofs.«417519_j83056077570643_3_alg».proof.Proof.Gen.KernelIdeal.Frame
import proofs.«417519_j83056077570643_3_alg».proof.Proof.Gen.ReferenceIdeal
import proofs.«417519_j83056077570643_3_alg».proof.Proof.Gen.ReferenceIdeal.Run
import proofs.«417519_j83056077570643_3_alg».proof.Proof.Gen.ReferenceIdeal.Read
import proofs.«417519_j83056077570643_3_alg».proof.Proof.Gen.Pre_finite_inputs
import proofs.«417519_j83056077570643_3_alg».proof.Proof.PreDecode
import proofs.«417519_j83056077570643_3_alg».proof.Proof.KernelValue
import proofs.«417519_j83056077570643_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the loss of the (agreeing) arguments. -/
theorem algebraic : Cert.algebraic_KernelIdeal_ReferenceIdeal := by
  intro m ρ m' ρ' hpre hagree
  have hdec := fun c => Cert.RgnLoss.pre_decode _ _ _ (hpre c)
  have hR : ∀ c, Cert.RgnLoss.KernelValue.InRange m c := fun c => (hdec c).2.2
  refine ⟨fun c => Cert.RgnLoss.loss (Cert.RgnLoss.KernelValue.xarr m c) (Cert.RgnLoss.KernelValue.tarr m c)
    (Cert.RgnLoss.KernelValue.parr m c), ?_, ?_⟩
  · exact (θ_run Cert.KernelIdeal.defs _ _).mono
      (fun _ h c => ⟨(h c).1.trans (Cert.RgnLoss.KernelValue.kres_eq m c (hR c)), (h c).2⟩)
      (Cert.RgnLoss.KernelValue.run m ρ fun c => Cert.RgnLoss.KernelValue.pblk_lt m c (hR c))
  · refine (θ_run Cert.ReferenceIdeal.defs _ _).mono (fun _ h c => ⟨(h c).1.trans ?_, (h c).2⟩)
      (Cert.ReferenceIdeal.Value.run (F := Ideal) m' ρ')
    have hX : ∀ i, ∃ r : ℝ, (m' ((c.tc : Thread Cert.ReferenceIdeal.nD Cert.ReferenceIdeal.τ).loc Cert.ReferenceIdeal.main_arg0)
        : FVec Ideal Cert.RgnLoss.SIn .f32) i = (r : EReal) := by rw [(hagree c).1]; exact (hdec c).1
    have hT : ∀ i, ∃ r : ℝ, (m' ((c.tc : Thread Cert.ReferenceIdeal.nD Cert.ReferenceIdeal.τ).loc Cert.ReferenceIdeal.main_arg1)
        : FVec Ideal Cert.RgnLoss.SIn .f32) i = (r : EReal) := by rw [(hagree c).2.1]; exact (hdec c).2.1
    have hP : ∀ (G : Fin 512) (s : Fin 128),
        256 * G.val ≤ ((m' ((c.tc : Thread Cert.ReferenceIdeal.nD Cert.ReferenceIdeal.τ).loc Cert.ReferenceIdeal.main_arg2)
          : IVec Cert.RgnLoss.SPos 32) (ValueIdx.ix2 G s)).toNat
        ∧ ((m' ((c.tc : Thread Cert.ReferenceIdeal.nD Cert.ReferenceIdeal.τ).loc Cert.ReferenceIdeal.main_arg2)
          : IVec Cert.RgnLoss.SPos 32) (ValueIdx.ix2 G s)).toNat < 256 * G.val + 256 := by
      rw [(hagree c).2.2]; exact hR c
    refine (Cert.RgnLoss.ref_value m' c hX hT hP).trans ?_
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
